-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg2 : IVec S640000 32) (main_v48 : IVec S_ 1) (main_v50 : IVec S640000 1) : IVec S_ 1 :=
  let main_c_19 : IVec S_ 32 := constantI S_ 32 10000#32
  let main_v51 : IVec S640000 32 := broadcastInDim S640000 ![] bcast_S_S640000 main_c_19
  let main_v52 : IVec S640000 1 := cmpi .slt main_arg2 main_v51
  let main_v53 : IVec S640000 1 := andi main_v50 main_v52
  let main_c_20 : IVec S_ 1 := constantI S_ 1 1#1
  let main_v54 : IVec S_ 1 := (fun x v => Host.reduce IntOp.andi x v reducesTo_S640000_S_d0 h_S_) main_v53 main_c_20
  let main_v55 : IVec S_ 1 := andi main_v48 main_v54
  main_v55

def fn_part2 {F : FTy → Type} [FloatOps F] (main_arg2 : IVec S640000 32) (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 4294957296#32
  let main_v49 : IVec S640000 32 := broadcastInDim S640000 ![] bcast_S_S640000 main_c_18
  let main_v50 : IVec S640000 1 := cmpi .sge main_arg2 main_v49
  fn_part3 (F := F) main_arg2 main_v48 main_v50

def fn_part1 {F : FTy → Type} [FloatOps F] (main_arg2 : IVec S640000 32) (main_arg6 : FVec F S128x128 .f32) (main_arg7 : FVec F S128 .f32) (main_arg8 : FVec F S384x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg8
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S10000x128 .f32) (main_arg1 : IVec S640000 32) (main_arg2 : IVec S640000 32) (main_arg3 : FVec F S10000x128 .f32) (main_arg4 : FVec F S256x128 .f32) (main_arg5 : FVec F S128 .f32) (main_arg6 : FVec F S128x128 .f32) (main_arg7 : FVec F S128 .f32) (main_arg8 : FVec F S384x128 .f32) (main_arg9 : FVec F S128 .f32) (main_arg10 : FVec F S128x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg3
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_v13 main_v16
-- ==== Kernel.lean ====
abbrev S10000x128 : Shape := ⟨2, ![10000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S1x128 : Shape := ⟨2, ![1, 128]⟩
abbrev S8000x128 : Shape := ⟨2, ![8000, 128]⟩
abbrev S2000x128 : Shape := ⟨2, ![2000, 128]⟩

abbrev nBuf : Space → Nat
  | .hbm => 82
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S10000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S1, .i32⟩
  | .hbm, ⟨21, _⟩ => ⟨S_, .i32⟩
  | .hbm, ⟨22, _⟩ => ⟨S640000x1, .i32⟩
  | .hbm, ⟨23, _⟩ => ⟨S640000x1, .i1⟩
  | .hbm, ⟨24, _⟩ => ⟨S1x1, .i32⟩
  | .hbm, ⟨25, _⟩ => ⟨S640000x1, .i32⟩
  | .hbm, ⟨26, _⟩ => ⟨S640000x1, .i1⟩
  | .hbm, ⟨27, _⟩ => ⟨S640000x1, .i1⟩
  | .hbm, ⟨28, _⟩ => ⟨S_, .i1⟩
  | .hbm, ⟨29, _⟩ => ⟨S640000, .i1⟩
  | .hbm, ⟨30, _⟩ => ⟨S640000x128, .f32⟩
  | .hbm, ⟨31, _⟩ => ⟨S640000x128, .i1⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .bf16⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S1, .i32⟩
  | .hbm, ⟨45, _⟩ => ⟨S_, .i32⟩
  | .hbm, ⟨46, _⟩ => ⟨S640000x1, .i32⟩
  | .hbm, ⟨47, _⟩ => ⟨S640000x1, .i1⟩
  | .hbm, ⟨48, _⟩ => ⟨S1x1, .i32⟩
  | .hbm, ⟨49, _⟩ => ⟨S640000x1, .i32⟩
  | .hbm, ⟨50, _⟩ => ⟨S640000x1, .i1⟩
  | .hbm, ⟨51, _⟩ => ⟨S640000x1, .i1⟩
  | .hbm, ⟨52, _⟩ => ⟨S_, .i1⟩
  | .hbm, ⟨53, _⟩ => ⟨S640000, .i1⟩
  | .hbm, ⟨54, _⟩ => ⟨S640000x128, .f32⟩
  | .hbm, ⟨55, _⟩ => ⟨S640000x128, .i1⟩
  | .hbm, ⟨56, _⟩ => ⟨S_, .f32⟩
  | .hbm, ⟨57, _⟩ => ⟨S640000x128, .f32⟩
  | .hbm, ⟨58, _⟩ => ⟨S640000x128, .f32⟩
  | .hbm, ⟨59, _⟩ => ⟨S640000x128, .bf16⟩
  | .hbm, ⟨60, _⟩ => ⟨S128x128, .f32⟩
  | .hbm, ⟨61, _⟩ => ⟨S128x128, .bf16⟩
  | .hbm, ⟨62, _⟩ => ⟨S128x128, .f32⟩
  | .hbm, ⟨63, _⟩ => ⟨S128x128, .bf16⟩
  | .hbm, ⟨64, _⟩ => ⟨S128x128, .bf16⟩
  | .hbm, ⟨65, _⟩ => ⟨S1x128, .f32⟩
  | .hbm, ⟨66, _⟩ => ⟨S1x128, .f32⟩
  | .hbm, ⟨67, _⟩ => ⟨S640000x128, .f32⟩
  | .hbm, ⟨68, _⟩ => ⟨S_, .f32⟩
  | .hbm, ⟨69, _⟩ => ⟨S10000x128, .f32⟩
  | .hbm, ⟨70, _⟩ => ⟨S640000x1, .i32⟩
  | .hbm, ⟨71, _⟩ => ⟨S10000x128, .f32⟩
  | .hbm, ⟨72, _⟩ => ⟨S128x128, .f32⟩
  | .hbm, ⟨73, _⟩ => ⟨S128x128, .bf16⟩
  | .hbm, ⟨74, _⟩ => ⟨S128x128, .f32⟩
  | .hbm, ⟨75, _⟩ => ⟨S128x128, .bf16⟩
  | .hbm, ⟨76, _⟩ => ⟨S128x128, .f32⟩
  | .hbm, ⟨77, _⟩ => ⟨S128x128, .bf16⟩
  | .hbm, ⟨78, _⟩ => ⟨S128x128, .bf16⟩
  | .hbm, ⟨79, _⟩ => ⟨S1x128, .f32⟩
  | .hbm, ⟨80, _⟩ => ⟨S1x128, .f32⟩
  | .hbm, ⟨81, _⟩ => ⟨S10000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S10000x128 : S_.BroadcastsInDim S10000x128 (![] : Fin 0 → Fin S10000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S10000x128_S640000x1_S640000x128_1_0_n_n_0_1_1128_wf : GatherDims.WF S10000x128 S640000x1 S640000x128 [1] [0] [] [0] [] 1 ![1, 128]
  dot_S8000x128_S128x128_S8000x128_1_0_0_1_n_n_wf : DotDims.WF S8000x128 S128x128 S8000x128 [1] [0] [0] [1] [] []
  scatter_S10000x128_S640000x1_S640000x128_1_0_0_1_wf : ScatterDims.WF S10000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .bf16 = 32 ∨ (Rect.block (s := S640000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .bf16 = 32 ∨ (Rect.block (s := S640000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S640000x128.size a
  hwx0_7 : ∀ i : grid0.Coords, EltTy.bits .f32 = 32 ∨ (Rect.block (s := S640000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S10000x128.size a
  hwx1_9 : ∀ i : grid1.Coords, EltTy.bits .f32 = 32 ∨ (Rect.block (s := S10000x128) S2000x128.size (cc1_transform_9 i) (hinb1_9 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S10000x384 : Shape := ⟨2, ![10000, 384]⟩

abbrev nBuf : Space → Nat
  | .hbm => 86
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S10000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x256, .f32⟩
  | .hbm, ⟨31, _⟩ => ⟨S640000x128, .f32⟩
  | .hbm, ⟨32, _⟩ => ⟨S1x128, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S1x128, .f32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S10000x128, .f32⟩
  | .hbm, ⟨54, _⟩ => ⟨S640000x1, .i32⟩
  | .hbm, ⟨55, _⟩ => ⟨S10000x128, .f32⟩
  | .hbm, ⟨56, _⟩ => ⟨S10000x384, .f32⟩
  | .hbm, ⟨57, _⟩ => ⟨S10000x384, .f32⟩
  | .hbm, ⟨58, _⟩ => ⟨S10000x384, .f32⟩
  | .hbm, ⟨59, _⟩ => ⟨S_, .f32⟩
  | .hbm, ⟨60, _⟩ => ⟨S10000x384, .f32⟩
  | .hbm, ⟨61, _⟩ => ⟨S10000x384, .f32⟩
  | .hbm, ⟨62, _⟩ => ⟨S_, .f32⟩
  | .hbm, ⟨63, _⟩ => ⟨S10000x384, .f32⟩
  | .hbm, ⟨64, _⟩ => ⟨S10000x384, .f32⟩
  | .hbm, ⟨65, _⟩ => ⟨S10000x128, .f32⟩
  | .hbm, ⟨66, _⟩ => ⟨S1x128, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | .hbm, ⟨74, _⟩ => ⟨S_, .f32⟩
  | .hbm, ⟨75, _⟩ => ⟨S10000x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S10000x128, .f32⟩
  | .hbm, ⟨82, _⟩ => ⟨S_, .f32⟩
  | .hbm, ⟨83, _⟩ => ⟨S10000x128, .f32⟩
  | .hbm, ⟨84, _⟩ => ⟨S10000x128, .f32⟩
  | .hbm, ⟨85, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_call1_v2 : Ref sig .tc := ⟨.hbm, 84, rfl⟩
abbrev main_v54 : Ref sig .tc := ⟨.hbm, 85, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  bcast_S_S10000x384 : S_.BroadcastsInDim S10000x384 (![] : Fin 0 → Fin S10000x384.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  dot_S10000x384_S384x128_S10000x128_1_0_0_1_n_n_wf : DotDims.WF S10000x384 S384x128 S10000x128 [1] [0] [0] [1] [] []
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x384_S384x128_S10000x128_1_0_0_1_n_n : DotDims S10000x384 S384x128 S10000x128 where
  lhsContracting := [1]
  rhsContracting := [0]
  lhsNonContracting := [0]
  rhsNonContracting := [1]
  lhsBatch := []
  rhsBatch := []
  wf := dot_S10000x384_S384x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The graph layer both programs compute, as whole-array functions over the extended reals.

  A node has 128 features; an edge e goes from node rows[e] to node cols[e].  Per edge the message is
  softsign(W2ᵀ sigmoid(W1ᵀ [src ; dst] + b1) + b2), where src and dst are the feature rows of the edge's two end nodes
  and the product with the 256-row matrix W1 is written as the product of src with its top half plus the product of
  dst with its bottom half.  Per node the messages of the edges whose rows entry is that node are summed (aggregate),
  and the output row is softsign(W4ᵀ sigmoid(W3ᵀ [sigmoid feat ; sigmoid aggregate ; sigmoid time] + b3) + b4), the product with the
  384-row matrix W3 again written as three products with its three 128-row thirds.

  An index into the node table is read as numpy reads it: a negative index counts from the end (10000 is added), and
  the result is clamped into the table.
-/
import Idealize.ShloMosaic.PureOps.Ideal
import Idealize.ShloMosaic.Lib.ValueIdx
import Mathlib.Algebra.BigOperators.Group.Finset.Basic

noncomputable section

open scoped BigOperators

namespace Cert.GnnSpec

open Idealize.ShloMosaic Idealize.ShloMosaic.ValueIdx

abbrev SNF : Shape := ⟨2, ![10000, 128]⟩
abbrev SEF : Shape := ⟨2, ![640000, 128]⟩
abbrev SE : Shape := ⟨1, ![640000]⟩
abbrev SW : Shape := ⟨2, ![128, 128]⟩
abbrev SW2 : Shape := ⟨2, ![256, 128]⟩
abbrev SW3 : Shape := ⟨2, ![384, 128]⟩
abbrev SB : Shape := ⟨1, ![128]⟩
abbrev SB2 : Shape := ⟨2, ![1, 128]⟩

/-- The logistic function 1 / (1 + e^(-x)) on the extended reals. -/
def sg (x : EReal) : EReal := Ideal.logistic x

/-- Softsign x / (|x| + 1) on the extended reals, the absolute value as max x (-x). -/
def ss (x : EReal) : EReal := Ideal.div x (max x (-x) + 1)

/-! ## The message of an edge and the output row of a node, from the arrays a grid step sees -/

/-- The message of edge e at channel j, from the edge-major arrays of source and destination features, the two halves
    of the first weight matrix, and the biases as one-row matrices. -/
def msgAt (src dst : SEF.Idx → EReal) (ws wd : SW.Idx → EReal) (b1 : SB2.Idx → EReal) (w2 : SW.Idx → EReal)
    (b2 : SB2.Idx → EReal) (e : Fin 640000) (j : Fin 128) : EReal :=
  ss ((∑ k : Fin 128,
        sg (((∑ q : Fin 128, src (ix2 e q) * ws (ix2 q k)) + (∑ q : Fin 128, dst (ix2 e q) * wd (ix2 q k)))
          + b1 (ix2 (0 : Fin 1) k)) * w2 (ix2 k j))
      + b2 (ix2 (0 : Fin 1) j))

/-- All messages: edge-major, 128 channels. -/
def msgArr (src dst : SEF.Idx → EReal) (ws wd : SW.Idx → EReal) (b1 : SB2.Idx → EReal) (w2 : SW.Idx → EReal)
    (b2 : SB2.Idx → EReal) : SEF.Idx → EReal :=
  fun i => msgAt src dst ws wd b1 w2 b2 (i 0) (i 1)

theorem msgArr_apply (src dst : SEF.Idx → EReal) (ws wd : SW.Idx → EReal) (b1 : SB2.Idx → EReal) (w2 : SW.Idx → EReal)
    (b2 : SB2.Idx → EReal) (e : Fin 640000) (j : Fin 128) :
    msgArr src dst ws wd b1 w2 b2 (ix2 e j) = msgAt src dst ws wd b1 w2 b2 e j := rfl

/-- The output of node n at channel o, from the node-major arrays of features, aggregated messages and time
    embedding, the three thirds of the third weight matrix, the fourth weight matrix and the biases as one-row
    matrices. -/
def outAt (f a t : SNF.Idx → EReal) (wf wa wt : SW.Idx → EReal) (b3 : SB2.Idx → EReal) (w4 : SW.Idx → EReal)
    (b4 : SB2.Idx → EReal) (n : Fin 10000) (o : Fin 128) : EReal :=
  ss ((∑ k : Fin 128,
        sg ((((∑ q : Fin 128, sg (f (ix2 n q)) * wf (ix2 q k)) + (∑ q : Fin 128, sg (a (ix2 n q)) * wa (ix2 q k)))
            + (∑ q : Fin 128, sg (t (ix2 n q)) * wt (ix2 q k)))
          + b3 (ix2 (0 : Fin 1) k)) * w4 (ix2 k o))
      + b4 (ix2 (0 : Fin 1) o))

/-- All outputs: node-major, 128 channels. -/
def outArr (f a t : SNF.Idx → EReal) (wf wa wt : SW.Idx → EReal) (b3 : SB2.Idx → EReal) (w4 : SW.Idx → EReal)
    (b4 : SB2.Idx → EReal) : SNF.Idx → EReal :=
  fun i => outAt f a t wf wa wt b3 w4 b4 (i 0) (i 1)

theorem outArr_apply (f a t : SNF.Idx → EReal) (wf wa wt : SW.Idx → EReal) (b3 : SB2.Idx → EReal) (w4 : SW.Idx → EReal)
    (b4 : SB2.Idx → EReal) (n : Fin 10000) (o : Fin 128) :
    outArr f a t wf wa wt b3 w4 b4 (ix2 n o) = outAt f a t wf wa wt b3 w4 b4 n o := rfl

/-! ## From the inputs to those arrays -/

/-- A node index as numpy reads it: a negative one counts from the end. -/
def wrapIdx (i : BitVec 32) : BitVec 32 := if i.toInt < 0 then i + 10000#32 else i

/-- The table row an index selects: wrapped, read signed, clamped into the table. -/
def rowOf (i : BitVec 32) : Fin 10000 := ⟨min (wrapIdx i).toInt.toNat 9999, by omega⟩

/-- The feature rows of the nodes an index array names, edge-major. -/
def gath (x : SNF.Idx → EReal) (idx : SE.Idx → BitVec 32) : SEF.Idx → EReal :=
  fun i => x (ix2 (rowOf (idx (ix1 (i 0)))) (i 1))

/-- Rows [off, off + 128) of a taller matrix. -/
def rowsFrom {R : Nat} (off : Nat) (h : off + 128 ≤ R) (w : (⟨2, ![R, 128]⟩ : Shape).Idx → EReal) : SW.Idx → EReal :=
  fun i => w (ix2 (⟨off + (i 0).val, by have h0 : (i 0).val < 128 := (i 0).isLt; omega⟩ : Fin R) (i 1))

/-- A bias vector as a one-row matrix. -/
def asRow (b : SB.Idx → EReal) : SB2.Idx → EReal := fun i => b (ix1 (i 1))

/-- The aggregate: at node n, the sum of the messages of the edges whose rows entry, read signed, is n. -/
def aggArr (rows : SE.Idx → BitVec 32) (M : SEF.Idx → EReal) : SNF.Idx → EReal :=
  fun i => ∑ e ∈ Finset.univ.filter (fun e : Fin 640000 => (rows (ix1 e)).toInt = (((i 0 : Fin 10000)).val : Int)),
    M (ix2 e (i 1))

/-- THE LAYER: the result array as one function of the twelve inputs. -/
def layer (x0 : SNF.Idx → EReal) (x1 x2 : SE.Idx → BitVec 32) (x3 : SNF.Idx → EReal) (x4 : SW2.Idx → EReal)
    (x5 : SB.Idx → EReal) (x6 : SW.Idx → EReal) (x7 : SB.Idx → EReal) (x8 : SW3.Idx → EReal) (x9 : SB.Idx → EReal)
    (x10 : SW.Idx → EReal) (x11 : SB.Idx → EReal) : SNF.Idx → EReal :=
  outArr x0
    (aggArr x1 (msgArr (gath x0 x1) (gath x0 x2) (rowsFrom 0 (by omega) x4) (rowsFrom 128 (by omega) x4) (asRow x5) x6 (asRow x7)))
    x3 (rowsFrom 0 (by omega) x8) (rowsFrom 128 (by omega) x8) (rowsFrom 256 (by omega) x8) (asRow x9) x10 (asRow x11)

end Cert.GnnSpec

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.KTake.lean ====
/-
  The kernel program's table lookup (numpy take with the default out-of-range behaviour) read at an index.

  The looked-up index is wrapped as numpy wraps it (10000 added to a negative one); a row is then fetched with the
  wrapped index clamped into the table, and the whole row is replaced by a filler wherever the wrapped index lies
  outside 0..9999.  Where the wrapped index lies inside the table the filler is never chosen, and the lookup is the
  plain row fetch of the specification.
-/
import proofs.«423729_j29875792511391_1_alg».proof.Proof.Gen.KernelIdeal
import proofs.«423729_j29875792511391_1_alg».proof.Proof.Spec
import proofs.«423729_j29875792511391_1_alg».proof.Proof.LibGatherRows
import Idealize.ShloMosaic.Lib.ReduceAll
import Idealize.ShloMosaic.Lib.Pipeline.Value
import Idealize.ShloMosaic.Lib.ValueIdx

noncomputable section

namespace Cert.KernelIdeal.Take

open Cert.KernelIdeal Cert.KernelIdeal.Gen Cert.GnnSpec
open Idealize.ShloMosaic Idealize.ShloMosaic.ValueIdx

/-- The wrapped index as a one-column matrix. -/
def takeIdx (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 10000#32))) idx)

/-- Per looked-up index: does the wrapped index lie in 0..9999? -/
def takeMask (idx : IVec S640000 32) : IVec S640000 1 :=
  Host.reduce IntOp.andi
    (andi (cmpi .sge (takeIdx idx) (broadcastInDim S640000x1 ![] bcast_S_S640000x1 (constantI S_ 32 0#32)))
      (cmpi .sle (takeIdx idx)
        (broadcastInDim S640000x1 ![0, 1] bcast_S1x1_S640000x1_0_1
          (broadcastInDim S1x1 ![1] bcast_S1_S1x1_1 (constantI S1 32 9999#32)))))
    (constantI S_ 1 1#1) reducesTo_S640000x1_S640000_d1 h_S_

/-- The lookup: the fetched row where the wrapped index is in range, the filler elsewhere. -/
def takeK (x : FVec Ideal S10000x128 .f32) (idx : IVec S640000 32) : FVec Ideal S640000x128 .f32 :=
  select (broadcastInDim S640000x128 ![0] bcast_S640000_S640000x128_0 (takeMask idx))
    (Host.gather gather_S10000x128_S640000x1_S640000x128_1_0_n_n_0_1_1128 x (takeIdx idx))
    (broadcastInDim S640000x128 ![] bcast_S_S640000x128 (constant (F := Ideal) S_ .f32 0x7FC00000#32))

/-- The wrapped index at row e is the specification's wrapped index of entry e. -/
theorem takeIdx_apply (idx : IVec S640000 32) (e : Fin 640000) :
    takeIdx idx (ix2 e (0 : Fin 1)) = wrapIdx (idx (ix1 e)) := by
  unfold takeIdx
  rw [broadcastInDim_apply _ bcast_S640000_S640000x1_0 _ (ix2 e (0 : Fin 1)) (ix1 e)
    (fun a => by match a with | ⟨0, _⟩ => rfl)]
  show Scalar.select (IntOp.cmpi .slt (idx (ix1 e)) 0#32) (IntOp.addi (idx (ix1 e)) 10000#32) (idx (ix1 e)) = _
  unfold wrapIdx Scalar.select
  have hz : (0#32 : BitVec 32).toInt = 0 := by decide
  by_cases h : (idx (ix1 e)).toInt < 0
  · have hc : IntOp.cmpi .slt (idx (ix1 e)) 0#32 = 1#1 := IntOp.cmpi_slt.2 (by rw [hz]; exact h)
    rw [if_pos h]
    exact (if_pos hc).trans rfl
  · have hc : ¬ IntOp.cmpi .slt (idx (ix1 e)) 0#32 = 1#1 := fun hc =>
      h (by have h2 := IntOp.cmpi_slt.1 hc; rwa [hz] at h2)
    rw [if_neg h]
    exact if_neg hc

/-- A fold by and over bits that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

/-- Where the wrapped index lies in 0..9999 the mask is set. -/
theorem takeMask_apply (idx : IVec S640000 32) (e : Fin 640000)
    (h0 : 0 ≤ (wrapIdx (idx (ix1 e))).toInt) (h1 : (wrapIdx (idx (ix1 e))).toInt ≤ 9999) :
    takeMask idx (ix1 e) = 1#1 := by
  unfold takeMask
  rw [Host.reduce_eq_foldl]
  show List.foldl _ 1#1 _ = 1#1
  refine foldl_andi_one _ _ fun i hi => ?_
  have hd : reducesTo_S640000x1_S640000_d1.drop i = ix1 e := of_decide_eq_true (List.mem_filter.1 hi).2
  have hv : ((reducesTo_S640000x1_S640000_d1.drop i) 0 : Nat) = i 0 :=
    Shape.ReducesTo.drop_apply_val reducesTo_S640000x1_S640000_d1 i 0
  have hi0 : (i 0).val = e.val := by rw [← hv, hd]
  have hi1 : (i 1).val = 0 := by have := (i 1).isLt; have h1' : (i 1).val < 1 := this; omega
  have hie : i = ix2 e (0 : Fin 1) := by
    funext a
    match a with
    | ⟨0, _⟩ => exact Fin.ext hi0
    | ⟨1, _⟩ => exact Fin.ext hi1
  subst hie
  show IntOp.andi (IntOp.cmpi .sge (takeIdx idx (ix2 e (0 : Fin 1))) 0#32)
      (IntOp.cmpi .sle (takeIdx idx (ix2 e (0 : Fin 1))) 9999#32) = 1#1
  rw [takeIdx_apply]
  exact IntOp.andi_eq_one.2 ⟨IntOp.cmpi_sge.2 (by rw [show (0#32 : BitVec 32).toInt = 0 by decide]; exact h0),
    IntOp.cmpi_sle.2 (by rw [show (9999#32 : BitVec 32).toInt = 9999 by decide]; exact h1)⟩

/-- Where the wrapped index lies in 0..9999 the lookup is the specification's row fetch. -/
theorem takeK_apply (x : FVec Ideal S10000x128 .f32) (idx : IVec S640000 32) (e : Fin 640000) (q : Fin 128)
    (h0 : 0 ≤ (wrapIdx (idx (ix1 e))).toInt) (h1 : (wrapIdx (idx (ix1 e))).toInt ≤ 9999) :
    takeK x idx (ix2 e q) = gath x idx (ix2 e q) := by
  unfold takeK
  show Scalar.select (broadcastInDim S640000x128 ![0] bcast_S640000_S640000x128_0 (takeMask idx) (ix2 e q))
      (Host.gather gather_S10000x128_S640000x1_S640000x128_1_0_n_n_0_1_1128 x (takeIdx idx) (ix2 e q)) _ = _
  rw [broadcastInDim_apply _ bcast_S640000_S640000x128_0 (takeMask idx) (ix2 e q) (ix1 e)
    (fun a => by match a with | ⟨0, _⟩ => rfl), takeMask_apply idx e h0 h1]
  show Host.gather gather_S10000x128_S640000x1_S640000x128_1_0_n_n_0_1_1128 x (takeIdx idx) (ix2 e q) = _
  rw [Idealize.ShloMosaic.GatherRows.gather_rows_apply (by decide)
    gather_S10000x128_S640000x1_S640000x128_1_0_n_n_0_1_1128 rfl rfl rfl rfl rfl rfl rfl x (takeIdx idx) e q]
  refine congrArg (fun r : Fin 10000 => x (ix2 r q)) (Fin.ext ?_)
  show min (takeIdx idx (ix2 e (0 : Fin 1))).toInt.toNat (10000 - 1) = min (wrapIdx (idx (ix1 e))).toInt.toNat 9999
  rw [takeIdx_apply]

end Cert.KernelIdeal.Take

end
-- ==== Proof.KHost.lean ====
/-
  What the kernel program's host operations hand to its two grid kernels, as functions of the launch memory.

  Before the first kernel: the two looked-up feature arrays (by rows and by cols), the two halves of the first weight
  matrix, the second weight matrix, and the two biases as one-row matrices (a change of float format is the identity
  on the extended reals).  Between the kernels: the messages accumulated per node by their rows entry into a zero
  array, the three thirds of the third weight matrix, the fourth weight matrix and the two other biases.
-/
import proofs.«423729_j29875792511391_1_alg».proof.Proof.Gen.KernelIdeal.Frame
import proofs.«423729_j29875792511391_1_alg».proof.Proof.KTake
import Idealize.ShloMosaic.Lib.StableHlo.Run
import Idealize.ShloMosaic.Lib.Pipeline.Value

set_option maxRecDepth 16384
-- one declaration at a time: the two lookups' result proofs are large and hold gigabytes while they are checked
set_option Elab.async false

noncomputable section

namespace Cert.KernelIdeal.Host

open Cert.KernelIdeal Cert.KernelIdeal.Gen Cert.KernelIdeal.Take Cert.GnnSpec
open Idealize.ShloMosaic Idealize.ShloMosaic.TcCoe Idealize.ShloMosaic.ValueIdx Idealize.ShloMosaic.StableHlo Idealize.SL.Sem

/-- A stretch of host operations leaves a buffer none of them writes as it was. -/
macro "skip_stretch" : tactic =>
  `(tactic| (refine StableHlo.after_of_forall_not_mem _ _ (List.forall_iff_forall_mem.mp ?_)
             simp only [hostOps0, hostOps0_1, hostOps0_2, hostOps0_3, hostOps1, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## Layout operations as the specification spells them -/

/-- A block of 128 rows cut out of a taller matrix. -/
theorem slice_rows {R : Nat} (off : Nat) (h : off + 128 ≤ R) (x : (⟨2, ![R, 128]⟩ : Shape).Idx → EReal)
    (hs : (⟨2, ![R, 128]⟩ : Shape).Slices ![off, 0] S128x128) :
    extractStridedSlice S128x128 ![off, 0] x hs = rowsFrom off h x := by
  funext j
  refine extractStridedSlice_apply _ x hs j _ fun a => ?_
  match a with
  | ⟨0, _⟩ => rfl
  | ⟨1, _⟩ => exact (Nat.zero_add _).symm

/-- A vector reshaped to a one-row matrix. -/
theorem reshape_row (b : S128.Idx → EReal) (h : S128.ShapeCasts S1x128) : shapeCast S1x128 b h = asRow b := by
  funext j
  refine shapeCast_apply b h j (ix1 (j 1)) ?_
  rw [Shape.rowMajor_val_one, Shape.rowMajor_val_two]
  have h0 : (j 0).val < 1 := (j 0).isLt
  show (j 1).val = (j 0).val * 128 + (j 1).val
  omega

variable (W : Valuation τ sig (Elt Ideal))

/-! ## Each stretch, from any contents -/

set_option maxHeartbeats 1000000 in
theorem take_rows : StableHlo.after (hostOps0 (F := Ideal)) W (Proc.devRef .tc main_v0)
    = takeK (W (Proc.devRef .tc main_arg0)) (W (Proc.devRef .tc main_arg1)) := by
  after_results_simp
  simp only [TRef.ofBuf, TRef.toBuf, cast_eq]
  rfl

theorem conv_rows : StableHlo.after (hostOps0_1 (F := Ideal)) W (Proc.devRef .tc main_v1) = W (Proc.devRef .tc main_v0) := by
  after_results; rfl

set_option maxHeartbeats 1000000 in
theorem take_cols : StableHlo.after (hostOps0_2 (F := Ideal)) W (Proc.devRef .tc main_v2)
    = takeK (W (Proc.devRef .tc main_arg0)) (W (Proc.devRef .tc main_arg2)) := by
  after_results_simp
  simp only [TRef.ofBuf, TRef.toBuf, cast_eq]
  rfl

theorem pre_v3 : StableHlo.after (hostOps0_3 (F := Ideal)) W (Proc.devRef .tc main_v3) = W (Proc.devRef .tc main_v2) := by
  after_results; rfl

theorem pre_v5 : StableHlo.after (hostOps0_3 (F := Ideal)) W (Proc.devRef .tc main_v5)
    = rowsFrom 0 (by omega) (W (Proc.devRef .tc main_arg4)) := by
  after_results
  exact slice_rows 0 (by omega) _ slices_S256x128_S128x128_0_0

theorem pre_v7 : StableHlo.after (hostOps0_3 (F := Ideal)) W (Proc.devRef .tc main_v7)
    = rowsFrom 128 (by omega) (W (Proc.devRef .tc main_arg4)) := by
  after_results
  exact slice_rows 128 (by omega) _ slices_S256x128_S128x128_128_0

theorem pre_v8 : StableHlo.after (hostOps0_3 (F := Ideal)) W (Proc.devRef .tc main_v8) = W (Proc.devRef .tc main_arg6) := by
  after_results; rfl

theorem pre_v9 : StableHlo.after (hostOps0_3 (F := Ideal)) W (Proc.devRef .tc main_v9)
    = asRow (W (Proc.devRef .tc main_arg5)) := by
  after_results; exact reshape_row _ _

theorem pre_v10 : StableHlo.after (hostOps0_3 (F := Ideal)) W (Proc.devRef .tc main_v10)
    = asRow (W (Proc.devRef .tc main_arg7)) := by
  after_results; exact reshape_row _ _

/-- The host's accumulation of the messages by rows into a zero array. -/
def scat (rows : IVec S640000 32) (M : FVec Ideal S640000x128 .f32) : FVec Ideal S10000x128 .f32 :=
  Host.scatterAdd scatter_S10000x128_S640000x1_S640000x128_1_0_0_1
    (broadcastInDim S10000x128 ![] bcast_S_S10000x128 (constant (F := Ideal) S_ .f32 0x00000000#32))
    (broadcastInDim S640000x1 ![0] bcast_S640000_S640000x1_0 rows) M

theorem mid_v14 : StableHlo.after (hostOps1 (F := Ideal)) W (Proc.devRef .tc main_v14)
    = scat (W (Proc.devRef .tc main_arg1)) (W (Proc.devRef .tc main_v11)) := by
  after_results; rfl

theorem mid_v16 : StableHlo.after (hostOps1 (F := Ideal)) W (Proc.devRef .tc main_v16)
    = rowsFrom 0 (by omega) (W (Proc.devRef .tc main_arg8)) := by
  after_results
  exact slice_rows 0 (by omega) _ slices_S384x128_S128x128_0_0

theorem mid_v18 : StableHlo.after (hostOps1 (F := Ideal)) W (Proc.devRef .tc main_v18)
    = rowsFrom 128 (by omega) (W (Proc.devRef .tc main_arg8)) := by
  after_results
  exact slice_rows 128 (by omega) _ slices_S384x128_S128x128_128_0

theorem mid_v20 : StableHlo.after (hostOps1 (F := Ideal)) W (Proc.devRef .tc main_v20)
    = rowsFrom 256 (by omega) (W (Proc.devRef .tc main_arg8)) := by
  after_results
  exact slice_rows 256 (by omega) _ slices_S384x128_S128x128_256_0

theorem mid_v21 : StableHlo.after (hostOps1 (F := Ideal)) W (Proc.devRef .tc main_v21) = W (Proc.devRef .tc main_arg10) := by
  after_results; rfl

theorem mid_v22 : StableHlo.after (hostOps1 (F := Ideal)) W (Proc.devRef .tc main_v22)
    = asRow (W (Proc.devRef .tc main_arg9)) := by
  after_results; exact reshape_row _ _

theorem mid_v23 : StableHlo.after (hostOps1 (F := Ideal)) W (Proc.devRef .tc main_v23)
    = asRow (W (Proc.devRef .tc main_arg11)) := by
  after_results; exact reshape_row _ _

end Cert.KernelIdeal.Host

end
-- ==== Proof.MsgRegion.lean ====
/-
  What the message kernel's pipeline leaves in its output array.

  The kernel walks the 640000 edges in 80 blocks of 8000 rows.  At one block it multiplies the block of source
  features by the top half of the first weight matrix and the block of destination features by its bottom half, adds
  the two products and the first bias row, applies the logistic function, multiplies by the second weight matrix,
  adds the second bias row and applies softsign x / (|x| + 1).  Row r of a block depends only on row r of the two
  feature blocks, so the 80 blocks together are the whole-array message function of the specification: edge e is
  row e mod 8000 of block e / 8000.
-/
import proofs.«423729_j29875792511391_1_alg».proof.Proof.Gen.KernelIdeal.Frame
import proofs.«423729_j29875792511391_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.MsgRegion

open Cert.KernelIdeal Cert.KernelIdeal.Gen Cert.GnnSpec
open Idealize.ShloMosaic Idealize.ShloMosaic.TcCoe Idealize.ShloMosaic.ValueIdx Idealize.SL.Sem
open Idealize.ShloMosaic.Pipeline (Dat Cfg Window)

/-! ## One block product at an entry -/

/-- The block product's left operand is read at the output's row … -/
theorem lhs_blk_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- … and the contraction's column, … -/
theorem lhs_blk_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- … the right operand at the contraction's row … -/
theorem rhs_blk_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- … and the output's column. -/
theorem rhs_blk_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A block product into the zero accumulator, at row p and column c: the sum over the 128 inner positions of the
    left block's row p times the right matrix's column c. -/
theorem blockProduct_apply (l : FVec Ideal S8000x128 .bf16) (r : FVec Ideal S128x128 .bf16) (p : Fin 8000) (c : Fin 128) :
    matmul dot_S8000x128_S128x128_S8000x128_1_0_0_1_n_n none l r (constant (F := Ideal) S8000x128 .f32 0x00000000#32) (ix2 p c)
      = ∑ k : Fin 128, l (ix2 p k) * r (ix2 k c) := by
  show FloatOps.matmul dot_S8000x128_S128x128_S8000x128_1_0_0_1_n_n none l r (constant (F := Ideal) S8000x128 .f32 0x00000000#32) (ix2 p c) = _
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p c) ((ValueIdx.contrEquiv1 dot_S8000x128_S128x128_S8000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S8000x128_S128x128_S8000x128_1_0_0_1_n_n.rhsIdx (ix2 p c) ((ValueIdx.contrEquiv1 dot_S8000x128_S128x128_S8000x128_1_0_0_1_n_n 128 rfl rfl).symm k) = ix2 k c := funext fun a => Fin.ext (by
    match a with
    | ⟨0, _⟩ => exact (rhs_blk_0 _ _).trans hk
    | ⟨1, _⟩ => exact rhs_blk_1 _ _)
  rw [el, er]

/-! ## The body's arithmetic at an entry -/

/-- The logistic function and the absolute value act entry by entry. -/
theorem logistic_at {s : Shape} {φ : FTy} (a : FVec Ideal s φ) (i : s.Idx) : logistic a i = Ideal.logistic (a i) := rfl
theorem absf_at {s : Shape} {φ : FTy} (a : FVec Ideal s φ) (i : s.Idx) : absf a i = max (a i) (-(a i)) := rfl

/-- The value the body stores, at row p and channel c of its block, from the seven blocks it loads: the message of
    the specification with the block's rows in place of the edges. -/
theorem payload_apply (x0 x1 : Vec Ideal S8000x128 .bf16) (x2 x3 : Vec Ideal S128x128 .bf16) (x4 : Vec Ideal S1x128 .f32)
    (x5 : Vec Ideal S128x128 .bf16) (x6 : Vec Ideal S1x128 .f32) (p : Fin 8000) (c : Fin 128) :
    k0_pay1 (F := Ideal) x0 x1 x2 x3 x4 x5 x6 (ix2 p c)
      = ss ((∑ k : Fin 128,
            sg (((∑ q : Fin 128, x0 (ix2 p q) * x2 (ix2 q k)) + (∑ q : Fin 128, x1 (ix2 p q) * x3 (ix2 q k)))
              + x4 (ix2 (0 : Fin 1) k)) * x5 (ix2 k c))
          + x6 (ix2 (0 : Fin 1) c)) := by
  unfold k0_pay1
  simp only [shapeCast_self]
  simp only [divf_apply, addf_apply, absf_at, broadcast_apply, blockProduct_apply, truncf_apply, logistic_at, broadcastTo_1b_ab_apply]
  have one : (FloatOps.ofBits (F := Ideal) FTy.f32 0x3F800000#32) = (1 : EReal) := Ideal.ofBits_one_f32
  rw [one]
  rfl

/-! ## Where the windows' blocks lie -/

theorem zero_offsets : (![0, 0] : Fin 2 → Nat) = fun _ => 0 := funext fun a => by fin_cases a <;> rfl

/-- The block indices of the eight windows at a grid point, decided over the 80 points: the two feature windows and
    the output window are at block row t, column 0; the four matrices and two bias rows are whole, at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The grid has 80 points. -/
theorem point_lt (t : Fin cfg0.N) : t.val < 80 := by
  have h : t.val < grid0.N := t.isLt
  rw [N_0] at h
  exact h

/-- The edge that row p of block t is: 8000 t + p. -/
def edgeOf (t : Fin cfg0.N) (p : Fin 8000) : Fin 640000 :=
  ⟨8000 * t.val + p.val, by have := point_lt t; have := p.isLt; omega⟩

section Region
variable (V : (c : Dev nD) → (b : Ref sig .tc) → Buf (Elt Ideal) ((c : Thread nD τ).loc b))

/-- Row p of the source-feature block at point t is the source-feature row of edge 8000 t + p. -/
theorem srcBlock_apply (c : Dev nD) (t : Fin cfg0.N) (p : Fin 8000) (q : Fin 128) :
    (iblk0 (F := Ideal) V c 0 t : Vec Ideal S8000x128 .bf16) (ix2 p q) = (V c main_v1 : S640000x128.Idx → EReal) (ix2 (edgeOf t p) q) := by
  obtain ⟨h00, h01, h10, h11, -, -, -, -, -, -, -, -, -, -, -, -⟩ := block_index t
  unfold iblk0
  rw [View.read_apply]
  show V c main_v1 _ = V c main_v1 _
  congr 1
  funext a; apply Fin.ext
  match a with
  | ⟨0, _⟩ => show win0_0.index t (0 : Fin 2) * 8000 + 1 * p.val = 8000 * t.val + p.val; rw [h00]; omega
  | ⟨1, _⟩ => show win0_0.index t (1 : Fin 2) * 128 + 1 * q.val = q.val; rw [h01]; omega

/-- Row p of the destination-feature block at point t is the destination-feature row of edge 8000 t + p. -/
theorem dstBlock_apply (c : Dev nD) (t : Fin cfg0.N) (p : Fin 8000) (q : Fin 128) :
    (iblk0 (F := Ideal) V c 1 t : Vec Ideal S8000x128 .bf16) (ix2 p q) = (V c main_v3 : S640000x128.Idx → EReal) (ix2 (edgeOf t p) q) := by
  obtain ⟨h00, h01, h10, h11, -, -, -, -, -, -, -, -, -, -, -, -⟩ := block_index t
  unfold iblk0
  rw [View.read_apply]
  show V c main_v3 _ = V c main_v3 _
  congr 1
  funext a; apply Fin.ext
  match a with
  | ⟨0, _⟩ => show win0_1.index t (0 : Fin 2) * 8000 + 1 * p.val = 8000 * t.val + p.val; rw [h10]; omega
  | ⟨1, _⟩ => show win0_1.index t (1 : Fin 2) * 128 + 1 * q.val = q.val; rw [h11]; omega

/-- The top half of the first weight matrix is staged whole at every point. -/
theorem wsBlock_eq (c : Dev nD) (t : Fin cfg0.N) :
    (iblk0 (F := Ideal) V c 2 t : Vec Ideal S128x128 .bf16) = (V c main_v5 : S128x128.Idx → EReal) := by
  obtain ⟨-, -, -, -, h20, h21, h30, h31, h40, h41, h50, h51, h60, h61, -, -⟩ := block_index t
  funext x
  unfold iblk0
  rw [View.read_apply]
  show V c main_v5 _ = V c main_v5 x
  congr 1
  funext a; apply Fin.ext
  match a with
  | ⟨0, _⟩ => show win0_2.index t (0 : Fin 2) * 128 + 1 * (x 0).val = (x 0).val; rw [h20]; omega
  | ⟨1, _⟩ => show win0_2.index t (1 : Fin 2) * 128 + 1 * (x 1).val = (x 1).val; rw [h21]; omega

/-- So is its bottom half, … -/
theorem wdBlock_eq (c : Dev nD) (t : Fin cfg0.N) :
    (iblk0 (F := Ideal) V c 3 t : Vec Ideal S128x128 .bf16) = (V c main_v7 : S128x128.Idx → EReal) := by
  obtain ⟨-, -, -, -, h20, h21, h30, h31, h40, h41, h50, h51, h60, h61, -, -⟩ := block_index t
  funext x
  unfold iblk0
  rw [View.read_apply]
  show V c main_v7 _ = V c main_v7 x
  congr 1
  funext a; apply Fin.ext
  match a with
  | ⟨0, _⟩ => show win0_3.index t (0 : Fin 2) * 128 + 1 * (x 0).val = (x 0).val; rw [h30]; omega
  | ⟨1, _⟩ => show win0_3.index t (1 : Fin 2) * 128 + 1 * (x 1).val = (x 1).val; rw [h31]; omega

/-- … the first bias row, … -/
theorem b1Block_eq (c : Dev nD) (t : Fin cfg0.N) :
    (iblk0 (F := Ideal) V c 4 t : Vec Ideal S1x128 .f32) = (V c main_v9 : S1x128.Idx → EReal) := by
  obtain ⟨-, -, -, -, h20, h21, h30, h31, h40, h41, h50, h51, h60, h61, -, -⟩ := block_index t
  funext x
  unfold iblk0
  rw [View.read_apply]
  show V c main_v9 _ = V c main_v9 x
  congr 1
  funext a; apply Fin.ext
  match a with
  | ⟨0, _⟩ => show win0_4.index t (0 : Fin 2) * 1 + 1 * (x 0).val = (x 0).val; rw [h40]; omega
  | ⟨1, _⟩ => show win0_4.index t (1 : Fin 2) * 128 + 1 * (x 1).val = (x 1).val; rw [h41]; omega

/-- … the second weight matrix … -/
theorem w2Block_eq (c : Dev nD) (t : Fin cfg0.N) :
    (iblk0 (F := Ideal) V c 5 t : Vec Ideal S128x128 .bf16) = (V c main_v8 : S128x128.Idx → EReal) := by
  obtain ⟨-, -, -, -, h20, h21, h30, h31, h40, h41, h50, h51, h60, h61, -, -⟩ := block_index t
  funext x
  unfold iblk0
  rw [View.read_apply]
  show V c main_v8 _ = V c main_v8 x
  congr 1
  funext a; apply Fin.ext
  match a with
  | ⟨0, _⟩ => show win0_5.index t (0 : Fin 2) * 128 + 1 * (x 0).val = (x 0).val; rw [h50]; omega
  | ⟨1, _⟩ => show win0_5.index t (1 : Fin 2) * 128 + 1 * (x 1).val = (x 1).val; rw [h51]; omega

/-- … and the second bias row. -/
theorem b2Block_eq (c : Dev nD) (t : Fin cfg0.N) :
    (iblk0 (F := Ideal) V c 6 t : Vec Ideal S1x128 .f32) = (V c main_v10 : S1x128.Idx → EReal) := by
  obtain ⟨-, -, -, -, h20, h21, h30, h31, h40, h41, h50, h51, h60, h61, -, -⟩ := block_index t
  funext x
  unfold iblk0
  rw [View.read_apply]
  show V c main_v10 _ = V c main_v10 x
  congr 1
  funext a; apply Fin.ext
  match a with
  | ⟨0, _⟩ => show win0_6.index t (0 : Fin 2) * 1 + 1 * (x 0).val = (x 0).val; rw [h60]; omega
  | ⟨1, _⟩ => show win0_6.index t (1 : Fin 2) * 128 + 1 * (x 1).val = (x 1).val; rw [h61]; omega

/-! ## One block of messages -/

/-- The body's value at row p of a block is the message of edge e, when row p of the two feature blocks is the
    feature row of e's two end nodes and the other five blocks are the whole matrices and bias rows. -/
theorem payload_eq_msgAt (src dst : SEF.Idx → EReal) (ws wd : SW.Idx → EReal) (b1 : SB2.Idx → EReal) (w2 : SW.Idx → EReal)
    (b2 : SB2.Idx → EReal)
    (x0 x1 : Vec Ideal S8000x128 .bf16) (x2 x3 : Vec Ideal S128x128 .bf16) (x4 : Vec Ideal S1x128 .f32)
    (x5 : Vec Ideal S128x128 .bf16) (x6 : Vec Ideal S1x128 .f32) (e : Fin 640000) (p : Fin 8000) (j : Fin 128)
    (h0 : ∀ q : Fin 128, x0 (ix2 p q) = src (ix2 e q)) (h1 : ∀ q : Fin 128, x1 (ix2 p q) = dst (ix2 e q))
    (h2 : x2 = ws) (h3 : x3 = wd) (h4 : x4 = b1) (h5 : x5 = w2) (h6 : x6 = b2) :
    k0_pay1 (F := Ideal) x0 x1 x2 x3 x4 x5 x6 (ix2 p j) = msgAt src dst ws wd b1 w2 b2 e j := by
  subst h2 h3 h4 h5 h6
  rw [payload_apply]
  unfold msgAt
  simp only [h0, h1]

/-- The entry of the output array that row p, channel j of point t's block is written to. -/
theorem outBlock_emb (t : Fin cfg0.N) (p : Fin 8000) (j : Fin 128) :
    (((cfg0.win 7).blk t).view.emb (ix2 p j) : S640000x128.Idx) = ix2 (edgeOf t p) j := by
  obtain ⟨-, -, -, -, -, -, -, -, -, -, -, -, -, -, h70, h71⟩ := block_index t
  funext a; apply Fin.ext
  match a with
  | ⟨0, _⟩ => show win0_7.index t (0 : Fin 2) * 8000 + 1 * p.val = 8000 * t.val + p.val; rw [h70]; omega
  | ⟨1, _⟩ => show win0_7.index t (1 : Fin 2) * 128 + 1 * j.val = j.val; rw [h71]; omega

/-- WHAT POINT t WRITES BACK is block t of the message array of the arrays the region finds. -/
theorem flushed_eq (c : Dev nD) (t : Fin cfg0.N) :
    (dat0 (F := Ideal) V c).flushed 7 t = ((cfg0.win 7).blk t).view.read (Elt Ideal)
      (msgArr (V c main_v1) (V c main_v3) (V c main_v5) (V c main_v7) (V c main_v9) (V c main_v8) (V c main_v10)) := by
  show (cfg0.win 7).cut (grid0.coords t) ((dat0 (F := Ideal) V c).after 7 t) = _
  rw [after0_7]
  unfold out0_7
  rw [View.canon_unit_zero zero_offsets]
  simp only [View.ld_unit_zero (S := S8000x128) zero_offsets, View.ld_unit_zero (S := S128x128) zero_offsets, View.ld_unit_zero (S := S1x128) zero_offsets]
  refine funext fun (y : S8000x128.Idx) => ?_
  obtain ⟨p, j, rfl⟩ : ∃ (p : Fin 8000) (j : Fin 128), y = ix2 p j := ⟨y 0, y 1, eq_ix2 y⟩
  show k0_pay1 (F := Ideal) (iblk0 V c 0 t) (iblk0 V c 1 t) (iblk0 V c 2 t) (iblk0 V c 3 t) (iblk0 V c 4 t) (iblk0 V c 5 t) (iblk0 V c 6 t) (ix2 p j)
    = msgArr (V c main_v1) (V c main_v3) (V c main_v5) (V c main_v7) (V c main_v9) (V c main_v8) (V c main_v10) (((cfg0.win 7).blk t).view.emb (ix2 p j))
  rw [outBlock_emb t p j, msgArr_apply]
  exact payload_eq_msgAt (V c main_v1) (V c main_v3) (V c main_v5) (V c main_v7) (V c main_v9) (V c main_v8) (V c main_v10)
    (iblk0 V c 0 t) (iblk0 V c 1 t) (iblk0 V c 2 t) (iblk0 V c 3 t) (iblk0 V c 4 t) (iblk0 V c 5 t) (iblk0 V c 6 t)
    (edgeOf t p) p j (srcBlock_apply V c t p) (dstBlock_apply V c t p)
    (wsBlock_eq V c t) (wdBlock_eq V c t) (b1Block_eq V c t) (w2Block_eq V c t) (b2Block_eq V c t)

/-! ## The 80 blocks are the array -/

/-- An entry of the output array is in point t's block iff each coordinate is in the block's range on its axis. -/
theorem mem_outBlock (t : Fin cfg0.N) (i : S640000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v11).slice (win0_7.rect t)).set ↔ _
  rw [View.set_slice_whole, Rect.mem_set_unit]
  exact Iff.rfl

/-- Edge e is written by point e / 8000. -/
theorem covered (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  have hN : grid0.N = 80 := N_0
  let t : Fin cfg0.N := ⟨(i 0).val / 8000, by show (i 0).val / 8000 < grid0.N; rw [hN]; omega⟩
  obtain ⟨-, -, -, -, -, -, -, -, -, -, -, -, -, -, h70, h71⟩ := block_index t
  have ht : t.val = (i 0).val / 8000 := rfl
  refine ⟨t, flush0_7 t, ?_⟩
  rw [mem_outBlock]
  intro a
  match a with
  | ⟨0, _⟩ => show win0_7.index t (0 : Fin 2) * 8000 ≤ (i 0).val ∧ (i 0).val < win0_7.index t (0 : Fin 2) * 8000 + 8000; rw [h70, ht]; omega
  | ⟨1, _⟩ => show win0_7.index t (1 : Fin 2) * 128 ≤ (i 1).val ∧ (i 1).val < win0_7.index t (1 : Fin 2) * 128 + 128; rw [h71]; omega

/-- THE MESSAGE ARRAY after the region: the message of every edge, from the seven arrays the region finds, whatever
    they hold. -/
theorem msg_region (c : Dev nD) :
    (dat0 (F := Ideal) V c).arrAt 7 cfg0.N
      = msgArr (V c main_v1) (V c main_v3) (V c main_v5) (V c main_v7) (V c main_v9) (V c main_v8) (V c main_v10) :=
  (dat0 (F := Ideal) V c).arrAt_eq_of_cover 7
    (msgArr (V c main_v1) (V c main_v3) (V c main_v5) (V c main_v7) (V c main_v9) (V c main_v8) (V c main_v10))
    (fun t _ => flushed_eq V c t) covered

end Region

end Cert.KernelIdeal.MsgRegion

end
-- ==== Proof.FeatRegion.lean ====
/-
  The node-update step of the graph layer, as the array it leaves behind.

  The step runs over the 10000 nodes in five blocks of 2000 rows.  At each block it reads the matching 2000 rows of
  the node features, of the aggregated messages and of the time embedding, and the whole of three 128 x 128 weight
  matrices, a bias row, a fourth weight matrix and a second bias row; it stores, at row r and channel o of its block,
  softsign(sum_k sigmoid(sum_q sigmoid(f[r,q]) wf[q,k] + sum_q sigmoid(a[r,q]) wa[q,k] + sum_q sigmoid(t[r,q]) wt[q,k]
  + b3[k]) w4[k,o] + b4[o]).  Block t of the output is rows 2000 t .. 2000 t + 1999, so row n is written by block
  n / 2000, the five blocks cover the array, and the array ends holding the output function of the specification
  applied to whatever the nine input arrays held when the step began.
-/
import proofs.«423729_j29875792511391_1_alg».proof.Proof.Gen.KernelIdeal.Frame
import proofs.«423729_j29875792511391_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.FeatRegion

open Cert.KernelIdeal Cert.KernelIdeal.Gen Idealize.ShloMosaic.ValueIdx Cert.GnnSpec

/-! ## One product of a 2000-row block with a 128 x 128 matrix, read at an entry -/

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator at entry (r, k) is the sum over the shared axis. -/
theorem mm_apply {φ₁ φ₂ : FTy} (a : FVec Ideal S2000x128 φ₁) (b : FVec Ideal S128x128 φ₂) (r : Fin 2000) (k : Fin 128) :
    matmul dot_S2000x128_S128x128_S2000x128_1_0_0_1_n_n none a b (constant S2000x128 .f32 0x00000000#32) (ix2 r k)
      = ∑ q : Fin 128, a (ix2 r q) * b (ix2 q k) := by
  show FloatOps.matmul dot_S2000x128_S128x128_S2000x128_1_0_0_1_n_n none a b (constant S2000x128 .f32 0x00000000#32) (ix2 r k) = _
  rw [Ideal.matmul_constant_zero_apply, ← Equiv.sum_comp (ValueIdx.contrEquiv1 dot_S2000x128_S128x128_S2000x128_1_0_0_1_n_n 128 rfl rfl).symm]
  refine Finset.sum_congr rfl fun q _ => ?_
  have hq := ValueIdx.contrEquiv1_symm_val dot_S2000x128_S128x128_S2000x128_1_0_0_1_n_n 128 rfl rfl q
  have el : dot_S2000x128_S128x128_S2000x128_1_0_0_1_n_n.lhsIdx (ix2 r k) ((ValueIdx.contrEquiv1 dot_S2000x128_S128x128_S2000x128_1_0_0_1_n_n 128 rfl rfl).symm q) = ix2 r q := funext fun a => Fin.ext (by
    match a with
    | ⟨0, _⟩ => exact lhs_mm_0 _ _
    | ⟨1, _⟩ => exact (lhs_mm_1 _ _).trans hq)
  have er : dot_S2000x128_S128x128_S2000x128_1_0_0_1_n_n.rhsIdx (ix2 r k) ((ValueIdx.contrEquiv1 dot_S2000x128_S128x128_S2000x128_1_0_0_1_n_n 128 rfl rfl).symm q) = ix2 q k := funext fun a => Fin.ext (by
    match a with
    | ⟨0, _⟩ => exact (rhs_mm_0 _ _).trans hq
    | ⟨1, _⟩ => exact rhs_mm_1 _ _)
  rw [el, er]

/-- A one-row matrix broadcast down the 2000 rows reads its column entry. -/
theorem row_apply (b : FVec Ideal S1x128 .f32) (r : Fin 2000) (k : Fin 128) :
    broadcastTo S2000x128 b broadcasts_S1x128_S2000x128 (ix2 r k) = b (ix2 (0 : Fin 1) k) := by
  refine broadcastTo_apply b broadcasts_S1x128_S2000x128 (ix2 r k) (ix2 (0 : Fin 1) k) fun a => ?_
  match a with
  | ⟨0, _⟩ => rfl
  | ⟨1, _⟩ => rfl

/-- The logistic of a block at an entry is the logistic of the entry. -/
theorem logistic_at {s : Shape} {φ : FTy} (a : FVec Ideal s φ) (i : s.Idx) : logistic a i = Ideal.logistic (a i) := rfl

/-- The value before the softsign, at row r and channel o: the second layer applied to the logistic of the first, the
    first layer being the three products of the logistic-squashed input rows plus the bias row. -/
theorem pre_at (x0 x1 x2 : Vec Ideal S2000x128 .f32) (x3 x4 x5 : Vec Ideal S128x128 .bf16) (x6 : Vec Ideal S1x128 .f32)
    (x7 : Vec Ideal S128x128 .bf16) (x8 : Vec Ideal S1x128 .f32) (r : Fin 2000) (o : Fin 128) :
    k1_pay2 (F := Ideal) x0 x1 x2 x3 x4 x5 x6 x7 x8 (ix2 r o)
      = (∑ k : Fin 128,
              Ideal.logistic ((((∑ q : Fin 128, Ideal.logistic (x0 (ix2 r q)) * x3 (ix2 q k))
                    + (∑ q : Fin 128, Ideal.logistic (x1 (ix2 r q)) * x4 (ix2 q k)))
                  + (∑ q : Fin 128, Ideal.logistic (x2 (ix2 r q)) * x5 (ix2 q k)))
                + x6 (ix2 (0 : Fin 1) k)) * x7 (ix2 k o))
            + x8 (ix2 (0 : Fin 1) o) := by
  unfold k1_pay2
  simp only [shapeCast_self, addf_apply, mm_apply, row_apply, truncf_apply, logistic_at]

/-- The block the body stores, at row r and channel o: that value divided by its absolute value plus one. -/
theorem pay_at (x0 x1 x2 : Vec Ideal S2000x128 .f32) (x3 x4 x5 : Vec Ideal S128x128 .bf16) (x6 : Vec Ideal S1x128 .f32)
    (x7 : Vec Ideal S128x128 .bf16) (x8 : Vec Ideal S1x128 .f32) (r : Fin 2000) (o : Fin 128) :
    k1_pay1 (F := Ideal) (k1_pay2 x0 x1 x2 x3 x4 x5 x6 x7 x8) (k1_pay3 x0 x1 x2 x3 x4 x5 x6 x7 x8) (k1_pay4 (F := Ideal)) (ix2 r o)
      = Ideal.div (k1_pay2 (F := Ideal) x0 x1 x2 x3 x4 x5 x6 x7 x8 (ix2 r o))
          (max (k1_pay2 (F := Ideal) x0 x1 x2 x3 x4 x5 x6 x7 x8 (ix2 r o)) (-(k1_pay2 (F := Ideal) x0 x1 x2 x3 x4 x5 x6 x7 x8 (ix2 r o))) + 1) := by
  unfold k1_pay1 k1_pay3 k1_pay4
  show Ideal.div (k1_pay2 (F := Ideal) x0 x1 x2 x3 x4 x5 x6 x7 x8 (ix2 r o))
          (max (k1_pay2 (F := Ideal) x0 x1 x2 x3 x4 x5 x6 x7 x8 (ix2 r o)) (-(k1_pay2 (F := Ideal) x0 x1 x2 x3 x4 x5 x6 x7 x8 (ix2 r o))) + Ideal.ofBits .f32 0x3F800000#32) = _
  rw [Ideal.ofBits_one_f32]

/-! ## One block against the specification -/

/-- A stored block agrees with the specification's output array at the array index its entry lands on, as soon as the
    three row blocks hold the array rows of that index and the six small operands are the whole arrays. -/
theorem blk_at (x0 x1 x2 : Vec Ideal S2000x128 .f32) (x3 x4 x5 : Vec Ideal S128x128 .bf16) (x6 : Vec Ideal S1x128 .f32)
    (x7 : Vec Ideal S128x128 .bf16) (x8 : Vec Ideal S1x128 .f32)
    (f a tt : SNF.Idx → EReal) (wf wa wt : SW.Idx → EReal) (b3 : SB2.Idx → EReal) (w4 : SW.Idx → EReal) (b4 : SB2.Idx → EReal)
    (j : S2000x128.Idx) (i : SNF.Idx)
    (h0 : ∀ q : Fin 128, x0 (ix2 (j 0) q) = f (ix2 (i 0) q))
    (h1 : ∀ q : Fin 128, x1 (ix2 (j 0) q) = a (ix2 (i 0) q))
    (h2 : ∀ q : Fin 128, x2 (ix2 (j 0) q) = tt (ix2 (i 0) q))
    (h3 : x3 = wf) (h4 : x4 = wa) (h5 : x5 = wt) (h6 : x6 = b3) (h7 : x7 = w4) (h8 : x8 = b4) (hi : i 1 = j 1) :
    k1_pay1 (F := Ideal) (k1_pay2 x0 x1 x2 x3 x4 x5 x6 x7 x8) (k1_pay3 x0 x1 x2 x3 x4 x5 x6 x7 x8) (k1_pay4 (F := Ideal)) j
      = outArr f a tt wf wa wt b3 w4 b4 i := by
  subst h3 h4 h5 h6 h7 h8
  obtain ⟨r, o, rfl⟩ : ∃ (r : Fin 2000) (o : Fin 128), j = ix2 r o := ⟨j 0, j 1, eq_ix2 j⟩
  have h0' : ∀ q : Fin 128, x0 (ix2 r q) = f (ix2 (i 0) q) := h0
  have h1' : ∀ q : Fin 128, x1 (ix2 r q) = a (ix2 (i 0) q) := h1
  have h2' : ∀ q : Fin 128, x2 (ix2 r q) = tt (ix2 (i 0) q) := h2
  have hi' : i 1 = o := hi
  rw [pay_at, pre_at]
  unfold outArr outAt ss sg
  simp only [h0', h1', h2', hi']

/-! ## The windows' block indices over the five grid points -/

theorem hz : (![0, 0] : Fin 2 → Nat) = fun _ => 0 := funext fun a => by fin_cases a <;> rfl

variable (V : (c : Dev nD) → (b : Ref sig .tc) → Buf (Elt Ideal) ((c : Thread nD τ).loc b))

/-- The output function of the specification at the nine arrays as the step finds them. -/
abbrev G (c : Dev nD) : SNF.Idx → EReal :=
  outArr (V c main_arg0) (V c main_v14) (V c main_arg3) (V c main_v16) (V c main_v18) (V c main_v20) (V c main_v22)
    (V c main_v21) (V c main_v23)

/-! Each window's block index at a grid point, decided over the five points: the three row windows and the output
    window sit at block (t, 0), the six small windows at block (0, 0). -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = t.val ∧ win1_9.index t (1 : Fin 2) = 0 :=
  (by decide +kernel : ∀ t : Fin grid1.N, _)

/-- Window 0's block at grid point t holds, at row r of the block, the row of the node features that the output block's row r lands on. -/
theorem rows0 (c : Dev nD) (t : Fin cfg1.N) (j : S2000x128.Idx) (q : Fin 128) :
    (iblk1 V c 0 t : Vec Ideal S2000x128 .f32) (ix2 (j 0) q)
      = V c main_arg0 (ix2 ((((cfg1.win 9).blk t).view.emb j) 0) q) := by
  obtain ⟨e0, e1⟩ := idx0 t
  obtain ⟨e90, e91⟩ := idx9 t
  show V c main_arg0 (((cfg1.win 0).blk t).view.emb (ix2 (j 0) q)) = V c main_arg0 (ix2 ((((cfg1.win 9).blk t).view.emb j) 0) q)
  refine congrArg (V c main_arg0) (funext fun a => Fin.ext ?_)
  match a with
  | ⟨0, _⟩ => show win1_0.index t (0 : Fin 2) * 2000 + 1 * (j 0).val = win1_9.index t (0 : Fin 2) * 2000 + 1 * (j 0).val; rw [e0, e90]
  | ⟨1, _⟩ => show win1_0.index t (1 : Fin 2) * 128 + 1 * q.val = q.val; rw [e1]; omega

/-- Window 1's block at grid point t holds, at row r of the block, the row of the aggregated messages that the output block's row r lands on. -/
theorem rows1 (c : Dev nD) (t : Fin cfg1.N) (j : S2000x128.Idx) (q : Fin 128) :
    (iblk1 V c 1 t : Vec Ideal S2000x128 .f32) (ix2 (j 0) q)
      = V c main_v14 (ix2 ((((cfg1.win 9).blk t).view.emb j) 0) q) := by
  obtain ⟨e0, e1⟩ := idx1 t
  obtain ⟨e90, e91⟩ := idx9 t
  show V c main_v14 (((cfg1.win 1).blk t).view.emb (ix2 (j 0) q)) = V c main_v14 (ix2 ((((cfg1.win 9).blk t).view.emb j) 0) q)
  refine congrArg (V c main_v14) (funext fun a => Fin.ext ?_)
  match a with
  | ⟨0, _⟩ => show win1_1.index t (0 : Fin 2) * 2000 + 1 * (j 0).val = win1_9.index t (0 : Fin 2) * 2000 + 1 * (j 0).val; rw [e0, e90]
  | ⟨1, _⟩ => show win1_1.index t (1 : Fin 2) * 128 + 1 * q.val = q.val; rw [e1]; omega

/-- Window 2's block at grid point t holds, at row r of the block, the row of the time embedding that the output block's row r lands on. -/
theorem rows2 (c : Dev nD) (t : Fin cfg1.N) (j : S2000x128.Idx) (q : Fin 128) :
    (iblk1 V c 2 t : Vec Ideal S2000x128 .f32) (ix2 (j 0) q)
      = V c main_arg3 (ix2 ((((cfg1.win 9).blk t).view.emb j) 0) q) := by
  obtain ⟨e0, e1⟩ := idx2 t
  obtain ⟨e90, e91⟩ := idx9 t
  show V c main_arg3 (((cfg1.win 2).blk t).view.emb (ix2 (j 0) q)) = V c main_arg3 (ix2 ((((cfg1.win 9).blk t).view.emb j) 0) q)
  refine congrArg (V c main_arg3) (funext fun a => Fin.ext ?_)
  match a with
  | ⟨0, _⟩ => show win1_2.index t (0 : Fin 2) * 2000 + 1 * (j 0).val = win1_9.index t (0 : Fin 2) * 2000 + 1 * (j 0).val; rw [e0, e90]
  | ⟨1, _⟩ => show win1_2.index t (1 : Fin 2) * 128 + 1 * q.val = q.val; rw [e1]; omega

/-- Window 3's one block is the whole of the first third of the third weight matrix. -/
theorem whole3 (c : Dev nD) (t : Fin cfg1.N) : (iblk1 V c 3 t : Vec Ideal S128x128 .bf16) = V c main_v16 := by
  obtain ⟨e0, e1⟩ := idx3 t
  refine funext fun (x : S128x128.Idx) => ?_
  show V c main_v16 (((cfg1.win 3).blk t).view.emb x) = V c main_v16 x
  refine congrArg (V c main_v16) (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- Window 4's one block is the whole of its second third. -/
theorem whole4 (c : Dev nD) (t : Fin cfg1.N) : (iblk1 V c 4 t : Vec Ideal S128x128 .bf16) = V c main_v18 := by
  obtain ⟨e0, e1⟩ := idx4 t
  refine funext fun (x : S128x128.Idx) => ?_
  show V c main_v18 (((cfg1.win 4).blk t).view.emb x) = V c main_v18 x
  refine congrArg (V c main_v18) (funext fun a => Fin.ext ?_)
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- Window 5's one block is the whole of its last third. -/
theorem whole5 (c : Dev nD) (t : Fin cfg1.N) : (iblk1 V c 5 t : Vec Ideal S128x128 .bf16) = V c main_v20 := by
  obtain ⟨e0, e1⟩ := idx5 t
  refine funext fun (x : S128x128.Idx) => ?_
  show V c main_v20 (((cfg1.win 5).blk t).view.emb x) = V c main_v20 x
  refine congrArg (V c main_v20) (funext fun a => Fin.ext ?_)
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- Window 6's one block is the whole of the third bias row. -/
theorem whole6 (c : Dev nD) (t : Fin cfg1.N) : (iblk1 V c 6 t : Vec Ideal S1x128 .f32) = V c main_v22 := by
  obtain ⟨e0, e1⟩ := idx6 t
  refine funext fun (x : S1x128.Idx) => ?_
  show V c main_v22 (((cfg1.win 6).blk t).view.emb x) = V c main_v22 x
  refine congrArg (V c main_v22) (funext fun a => Fin.ext ?_)
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- Window 7's one block is the whole of the fourth weight matrix. -/
theorem whole7 (c : Dev nD) (t : Fin cfg1.N) : (iblk1 V c 7 t : Vec Ideal S128x128 .bf16) = V c main_v21 := by
  obtain ⟨e0, e1⟩ := idx7 t
  refine funext fun (x : S128x128.Idx) => ?_
  show V c main_v21 (((cfg1.win 7).blk t).view.emb x) = V c main_v21 x
  refine congrArg (V c main_v21) (funext fun a => Fin.ext ?_)
  match a with
  | ⟨0, _⟩ => show win1_7.index t (0 : Fin 2) * 128 + 1 * (x 0).val = (x 0).val; rw [e0]; omega
  | ⟨1, _⟩ => show win1_7.index t (1 : Fin 2) * 128 + 1 * (x 1).val = (x 1).val; rw [e1]; omega

/-- Window 8's one block is the whole of the fourth bias row. -/
theorem whole8 (c : Dev nD) (t : Fin cfg1.N) : (iblk1 V c 8 t : Vec Ideal S1x128 .f32) = V c main_v23 := by
  obtain ⟨e0, e1⟩ := idx8 t
  refine funext fun (x : S1x128.Idx) => ?_
  show V c main_v23 (((cfg1.win 8).blk t).view.emb x) = V c main_v23 x
  refine congrArg (V c main_v23) (funext fun a => Fin.ext ?_)
  match a with
  | ⟨0, _⟩ => show win1_8.index t (0 : Fin 2) * 1 + 1 * (x 0).val = (x 0).val; rw [e0]; omega
  | ⟨1, _⟩ => show win1_8.index t (1 : Fin 2) * 128 + 1 * (x 1).val = (x 1).val; rw [e1]; omega

/-- The output block keeps the channel coordinate. -/
theorem col9 (t : Fin cfg1.N) (j : S2000x128.Idx) : (((cfg1.win 9).blk t).view.emb j) 1 = j 1 := by
  obtain ⟨e90, e91⟩ := idx9 t
  refine Fin.ext ?_
  show win1_9.index t (1 : Fin 2) * 128 + 1 * (j 1).val = (j 1).val
  rw [e91]; omega

/-- What grid point t writes back is block t of that function. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 (F := Ideal) V c).after 9 t) = _
  rw [after1_9]
  unfold out1_9
  rw [View.canon_unit_zero hz]
  simp only [View.ld_unit_zero (S := S2000x128) hz, View.ld_unit_zero (S := S128x128) hz, View.ld_unit_zero (S := S1x128) hz]
  refine funext fun (j : S2000x128.Idx) => ?_
  show k1_pay1 (F := Ideal)
        (k1_pay2 (iblk1 V c 0 t) (iblk1 V c 1 t) (iblk1 V c 2 t) (iblk1 V c 3 t) (iblk1 V c 4 t) (iblk1 V c 5 t)
          (iblk1 V c 6 t) (iblk1 V c 7 t) (iblk1 V c 8 t))
        (k1_pay3 (iblk1 V c 0 t) (iblk1 V c 1 t) (iblk1 V c 2 t) (iblk1 V c 3 t) (iblk1 V c 4 t) (iblk1 V c 5 t)
          (iblk1 V c 6 t) (iblk1 V c 7 t) (iblk1 V c 8 t))
        (k1_pay4 (F := Ideal)) j
      = G V c (((cfg1.win 9).blk t).view.emb j)
  exact blk_at (iblk1 V c 0 t) (iblk1 V c 1 t) (iblk1 V c 2 t) (iblk1 V c 3 t) (iblk1 V c 4 t) (iblk1 V c 5 t)
    (iblk1 V c 6 t) (iblk1 V c 7 t) (iblk1 V c 8 t)
    (V c main_arg0) (V c main_v14) (V c main_arg3) (V c main_v16) (V c main_v18) (V c main_v20) (V c main_v22)
    (V c main_v21) (V c main_v23) j (((cfg1.win 9).blk t).view.emb j)
    (rows0 V c t j) (rows1 V c t j) (rows2 V c t j) (whole3 V c t) (whole4 V c t) (whole5 V c t) (whole6 V c t)
    (whole7 V c t) (whole8 V c t) (col9 t j)

/-! ## The five blocks cover the array -/

/-- An array index is in grid point t's block iff each coordinate is in the block's range on its axis. -/
theorem mem_blk (t : Fin cfg1.N) (i : SNF.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v24).slice (win1_9.rect t)).set ↔ _
  rw [View.set_slice_whole, Rect.mem_set_unit]
  exact Iff.rfl

/-- Row n is in the block of grid point n / 2000, and every grid point writes its block back. -/
theorem cover (i : SNF.Idx) : ∃ t : Fin cfg1.N, (cfg1.win 9).flush t = true ∧ i ∈ ((cfg1.win 9).blk t).view.set := by
  have hi0 : (i 0).val < 10000 := (i 0).isLt
  have hi1 : (i 1).val < 128 := (i 1).isLt
  have hN : cfg1.N = 5 := N_1
  have ht : (i 0).val / 2000 < cfg1.N := by rw [hN]; omega
  obtain ⟨e90, e91⟩ := idx9 ⟨(i 0).val / 2000, ht⟩
  have e90' : win1_9.index ⟨(i 0).val / 2000, ht⟩ (0 : Fin 2) = (i 0).val / 2000 := e90
  refine ⟨⟨(i 0).val / 2000, ht⟩, flush1_9 _, ?_⟩
  rw [mem_blk]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e90']; omega
  | ⟨1, _⟩ =>
    show win1_9.index ⟨(i 0).val / 2000, ht⟩ (1 : Fin 2) * 128 ≤ (i 1).val ∧ (i 1).val < win1_9.index ⟨(i 0).val / 2000, ht⟩ (1 : Fin 2) * 128 + 128
    rw [e91]; omega

/-! ## The array the step leaves -/

/-- After the five grid points the output array holds the specification's output function of the nine arrays as the
    step found them, whatever those were. -/
theorem feat_region (c : Dev nD) :
    (dat1 (F := Ideal) V c).arrAt 9 cfg1.N
      = Cert.GnnSpec.outArr (V c main_arg0) (V c main_v14) (V c main_arg3) (V c main_v16) (V c main_v18) (V c main_v20)
          (V c main_v22) (V c main_v21) (V c main_v23) :=
  (dat1 (F := Ideal) V c).arrAt_eq_of_cover 9 (G V c) (fun t _ => flushed_eq V c t) cover

end Cert.KernelIdeal.FeatRegion

end
-- ==== Proof.KValue.lean ====
/-
  The kernel program's result array as one function of the launch memory: the second grid kernel's output over what
  the host operations and the first grid kernel hand it.
-/
import proofs.«423729_j29875792511391_1_alg».proof.Proof.KHost
import proofs.«423729_j29875792511391_1_alg».proof.Proof.MsgRegion
import proofs.«423729_j29875792511391_1_alg».proof.Proof.FeatRegion

set_option maxRecDepth 16384

noncomputable section

namespace Cert.KernelIdeal.KValue

open Cert.KernelIdeal Cert.KernelIdeal.Gen Cert.KernelIdeal.Take Cert.KernelIdeal.Host Cert.GnnSpec
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## The argument arrays at each boundary are the launch contents -/

theorem W2_arg0 : W2 m ρ c (Proc.devRef .tc main_arg0) = m ((c : Thread nD τ).loc main_arg0) :=
  calc W2 m ρ c (Proc.devRef .tc main_arg0)
    _ = W1 m ρ c (Proc.devRef .tc main_arg0) := by skip_stretch
    _ = W0 m ρ c (Proc.devRef .tc main_arg0) := by skip_stretch
    _ = m ((c : Thread nD τ).loc main_arg0) := rfl

theorem W2_arg2 : W2 m ρ c (Proc.devRef .tc main_arg2) = m ((c : Thread nD τ).loc main_arg2) :=
  calc W2 m ρ c (Proc.devRef .tc main_arg2)
    _ = W1 m ρ c (Proc.devRef .tc main_arg2) := by skip_stretch
    _ = W0 m ρ c (Proc.devRef .tc main_arg2) := by skip_stretch
    _ = m ((c : Thread nD τ).loc main_arg2) := rfl

theorem W3_arg4 : W3 m ρ c (Proc.devRef .tc main_arg4) = m ((c : Thread nD τ).loc main_arg4) :=
  calc W3 m ρ c (Proc.devRef .tc main_arg4)
    _ = W2 m ρ c (Proc.devRef .tc main_arg4) := by skip_stretch
    _ = W1 m ρ c (Proc.devRef .tc main_arg4) := by skip_stretch
    _ = W0 m ρ c (Proc.devRef .tc main_arg4) := by skip_stretch
    _ = m ((c : Thread nD τ).loc main_arg4) := rfl

theorem W3_arg5 : W3 m ρ c (Proc.devRef .tc main_arg5) = m ((c : Thread nD τ).loc main_arg5) :=
  calc W3 m ρ c (Proc.devRef .tc main_arg5)
    _ = W2 m ρ c (Proc.devRef .tc main_arg5) := by skip_stretch
    _ = W1 m ρ c (Proc.devRef .tc main_arg5) := by skip_stretch
    _ = W0 m ρ c (Proc.devRef .tc main_arg5) := by skip_stretch
    _ = m ((c : Thread nD τ).loc main_arg5) := rfl

theorem W3_arg6 : W3 m ρ c (Proc.devRef .tc main_arg6) = m ((c : Thread nD τ).loc main_arg6) :=
  calc W3 m ρ c (Proc.devRef .tc main_arg6)
    _ = W2 m ρ c (Proc.devRef .tc main_arg6) := by skip_stretch
    _ = W1 m ρ c (Proc.devRef .tc main_arg6) := by skip_stretch
    _ = W0 m ρ c (Proc.devRef .tc main_arg6) := by skip_stretch
    _ = m ((c : Thread nD τ).loc main_arg6) := rfl

theorem W3_arg7 : W3 m ρ c (Proc.devRef .tc main_arg7) = m ((c : Thread nD τ).loc main_arg7) :=
  calc W3 m ρ c (Proc.devRef .tc main_arg7)
    _ = W2 m ρ c (Proc.devRef .tc main_arg7) := by skip_stretch
    _ = W1 m ρ c (Proc.devRef .tc main_arg7) := by skip_stretch
    _ = W0 m ρ c (Proc.devRef .tc main_arg7) := by skip_stretch
    _ = m ((c : Thread nD τ).loc main_arg7) := rfl

theorem W4_arg0 : W4 m ρ c (Proc.devRef .tc main_arg0) = m ((c : Thread nD τ).loc main_arg0) :=
  calc W4 m ρ c (Proc.devRef .tc main_arg0)
    _ = W3 m ρ c (Proc.devRef .tc main_arg0) := by skip_stretch
    _ = W2 m ρ c (Proc.devRef .tc main_arg0) := by skip_stretch
    _ = W1 m ρ c (Proc.devRef .tc main_arg0) := by skip_stretch
    _ = W0 m ρ c (Proc.devRef .tc main_arg0) := by skip_stretch
    _ = m ((c : Thread nD τ).loc main_arg0) := rfl

theorem W4_arg1 : W4 m ρ c (Proc.devRef .tc main_arg1) = m ((c : Thread nD τ).loc main_arg1) :=
  calc W4 m ρ c (Proc.devRef .tc main_arg1)
    _ = W3 m ρ c (Proc.devRef .tc main_arg1) := by skip_stretch
    _ = W2 m ρ c (Proc.devRef .tc main_arg1) := by skip_stretch
    _ = W1 m ρ c (Proc.devRef .tc main_arg1) := by skip_stretch
    _ = W0 m ρ c (Proc.devRef .tc main_arg1) := by skip_stretch
    _ = m ((c : Thread nD τ).loc main_arg1) := rfl

theorem W4_arg3 : W4 m ρ c (Proc.devRef .tc main_arg3) = m ((c : Thread nD τ).loc main_arg3) :=
  calc W4 m ρ c (Proc.devRef .tc main_arg3)
    _ = W3 m ρ c (Proc.devRef .tc main_arg3) := by skip_stretch
    _ = W2 m ρ c (Proc.devRef .tc main_arg3) := by skip_stretch
    _ = W1 m ρ c (Proc.devRef .tc main_arg3) := by skip_stretch
    _ = W0 m ρ c (Proc.devRef .tc main_arg3) := by skip_stretch
    _ = m ((c : Thread nD τ).loc main_arg3) := rfl

theorem W4_arg8 : W4 m ρ c (Proc.devRef .tc main_arg8) = m ((c : Thread nD τ).loc main_arg8) :=
  calc W4 m ρ c (Proc.devRef .tc main_arg8)
    _ = W3 m ρ c (Proc.devRef .tc main_arg8) := by skip_stretch
    _ = W2 m ρ c (Proc.devRef .tc main_arg8) := by skip_stretch
    _ = W1 m ρ c (Proc.devRef .tc main_arg8) := by skip_stretch
    _ = W0 m ρ c (Proc.devRef .tc main_arg8) := by skip_stretch
    _ = m ((c : Thread nD τ).loc main_arg8) := rfl

theorem W4_arg9 : W4 m ρ c (Proc.devRef .tc main_arg9) = m ((c : Thread nD τ).loc main_arg9) :=
  calc W4 m ρ c (Proc.devRef .tc main_arg9)
    _ = W3 m ρ c (Proc.devRef .tc main_arg9) := by skip_stretch
    _ = W2 m ρ c (Proc.devRef .tc main_arg9) := by skip_stretch
    _ = W1 m ρ c (Proc.devRef .tc main_arg9) := by skip_stretch
    _ = W0 m ρ c (Proc.devRef .tc main_arg9) := by skip_stretch
    _ = m ((c : Thread nD τ).loc main_arg9) := rfl

theorem W4_arg10 : W4 m ρ c (Proc.devRef .tc main_arg10) = m ((c : Thread nD τ).loc main_arg10) :=
  calc W4 m ρ c (Proc.devRef .tc main_arg10)
    _ = W3 m ρ c (Proc.devRef .tc main_arg10) := by skip_stretch
    _ = W2 m ρ c (Proc.devRef .tc main_arg10) := by skip_stretch
    _ = W1 m ρ c (Proc.devRef .tc main_arg10) := by skip_stretch
    _ = W0 m ρ c (Proc.devRef .tc main_arg10) := by skip_stretch
    _ = m ((c : Thread nD τ).loc main_arg10) := rfl

theorem W4_arg11 : W4 m ρ c (Proc.devRef .tc main_arg11) = m ((c : Thread nD τ).loc main_arg11) :=
  calc W4 m ρ c (Proc.devRef .tc main_arg11)
    _ = W3 m ρ c (Proc.devRef .tc main_arg11) := by skip_stretch
    _ = W2 m ρ c (Proc.devRef .tc main_arg11) := by skip_stretch
    _ = W1 m ρ c (Proc.devRef .tc main_arg11) := by skip_stretch
    _ = W0 m ρ c (Proc.devRef .tc main_arg11) := by skip_stretch
    _ = m ((c : Thread nD τ).loc main_arg11) := rfl

/-! ## The first grid kernel's operands -/

theorem V4_v1 : V4 m ρ c main_v1 = takeK (m ((c : Thread nD τ).loc main_arg0)) (m ((c : Thread nD τ).loc main_arg1)) :=
  calc W4 m ρ c (Proc.devRef .tc main_v1)
    _ = W3 m ρ c (Proc.devRef .tc main_v1) := by skip_stretch
    _ = W2 m ρ c (Proc.devRef .tc main_v1) := by skip_stretch
    _ = W1 m ρ c (Proc.devRef .tc main_v0) := conv_rows (W1 m ρ c)
    _ = takeK (W0 m ρ c (Proc.devRef .tc main_arg0)) (W0 m ρ c (Proc.devRef .tc main_arg1)) := take_rows (W0 m ρ c)
    _ = _ := rfl

theorem V4_v3 : V4 m ρ c main_v3 = takeK (m ((c : Thread nD τ).loc main_arg0)) (m ((c : Thread nD τ).loc main_arg2)) :=
  calc W4 m ρ c (Proc.devRef .tc main_v3)
    _ = W3 m ρ c (Proc.devRef .tc main_v2) := pre_v3 (W3 m ρ c)
    _ = takeK (W2 m ρ c (Proc.devRef .tc main_arg0)) (W2 m ρ c (Proc.devRef .tc main_arg2)) := take_cols (W2 m ρ c)
    _ = _ := by rw [W2_arg0, W2_arg2]

theorem V4_v5 : V4 m ρ c main_v5 = rowsFrom 0 (by omega) (m ((c : Thread nD τ).loc main_arg4)) :=
  (pre_v5 (W3 m ρ c)).trans (by rw [W3_arg4])

theorem V4_v7 : V4 m ρ c main_v7 = rowsFrom 128 (by omega) (m ((c : Thread nD τ).loc main_arg4)) :=
  (pre_v7 (W3 m ρ c)).trans (by rw [W3_arg4])

theorem V4_v8 : V4 m ρ c main_v8 = m ((c : Thread nD τ).loc main_arg6) :=
  (pre_v8 (W3 m ρ c)).trans (W3_arg6 m ρ c)

theorem V4_v9 : V4 m ρ c main_v9 = asRow (m ((c : Thread nD τ).loc main_arg5)) :=
  (pre_v9 (W3 m ρ c)).trans (by rw [W3_arg5])

theorem V4_v10 : V4 m ρ c main_v10 = asRow (m ((c : Thread nD τ).loc main_arg7)) :=
  (pre_v10 (W3 m ρ c)).trans (by rw [W3_arg7])

/-! ## The second grid kernel's operands -/

theorem W5_arg (b : Ref sig .tc) (hb : ∀ w, Pipeline.arrRef spec0 w ≠ b) :
    W5 m ρ c (Proc.devRef .tc b) = W4 m ρ c (Proc.devRef .tc b) := W5_of_ne m ρ c b hb

/-- All messages, as the first grid kernel leaves them. -/
theorem W5_v11 : W5 m ρ c (Proc.devRef .tc main_v11)
    = msgArr (takeK (m ((c : Thread nD τ).loc main_arg0)) (m ((c : Thread nD τ).loc main_arg1)))
        (takeK (m ((c : Thread nD τ).loc main_arg0)) (m ((c : Thread nD τ).loc main_arg2)))
        (rowsFrom 0 (by omega) (m ((c : Thread nD τ).loc main_arg4))) (rowsFrom 128 (by omega) (m ((c : Thread nD τ).loc main_arg4)))
        (asRow (m ((c : Thread nD τ).loc main_arg5))) (m ((c : Thread nD τ).loc main_arg6))
        (asRow (m ((c : Thread nD τ).loc main_arg7))) := by
  refine ((W5_arr m ρ c 7).trans (MsgRegion.msg_region (V4 m ρ) c)).trans ?_
  rw [V4_v1, V4_v3, V4_v5, V4_v7, V4_v8, V4_v9, V4_v10]

theorem V6_arg0 : V6 m ρ c main_arg0 = m ((c : Thread nD τ).loc main_arg0) :=
  calc W6 m ρ c (Proc.devRef .tc main_arg0)
    _ = W5 m ρ c (Proc.devRef .tc main_arg0) := by skip_stretch
    _ = W4 m ρ c (Proc.devRef .tc main_arg0) := W5_of_ne m ρ c main_arg0 (by decide)
    _ = _ := W4_arg0 m ρ c

theorem V6_arg3 : V6 m ρ c main_arg3 = m ((c : Thread nD τ).loc main_arg3) :=
  calc W6 m ρ c (Proc.devRef .tc main_arg3)
    _ = W5 m ρ c (Proc.devRef .tc main_arg3) := by skip_stretch
    _ = W4 m ρ c (Proc.devRef .tc main_arg3) := W5_of_ne m ρ c main_arg3 (by decide)
    _ = _ := W4_arg3 m ρ c

theorem W5_arg1 : W5 m ρ c (Proc.devRef .tc main_arg1) = m ((c : Thread nD τ).loc main_arg1) :=
  (W5_of_ne m ρ c main_arg1 (by decide)).trans (W4_arg1 m ρ c)
theorem W5_arg8 : W5 m ρ c (Proc.devRef .tc main_arg8) = m ((c : Thread nD τ).loc main_arg8) :=
  (W5_of_ne m ρ c main_arg8 (by decide)).trans (W4_arg8 m ρ c)
theorem W5_arg9 : W5 m ρ c (Proc.devRef .tc main_arg9) = m ((c : Thread nD τ).loc main_arg9) :=
  (W5_of_ne m ρ c main_arg9 (by decide)).trans (W4_arg9 m ρ c)
theorem W5_arg10 : W5 m ρ c (Proc.devRef .tc main_arg10) = m ((c : Thread nD τ).loc main_arg10) :=
  (W5_of_ne m ρ c main_arg10 (by decide)).trans (W4_arg10 m ρ c)
theorem W5_arg11 : W5 m ρ c (Proc.devRef .tc main_arg11) = m ((c : Thread nD τ).loc main_arg11) :=
  (W5_of_ne m ρ c main_arg11 (by decide)).trans (W4_arg11 m ρ c)

/-- THE KERNEL PROGRAM'S RESULT, from the launch memory. -/
theorem result_eq : W7 m ρ c (Proc.devRef .tc main_v24)
    = outArr (m ((c : Thread nD τ).loc main_arg0))
        (scat (m ((c : Thread nD τ).loc main_arg1))
          (msgArr (takeK (m ((c : Thread nD τ).loc main_arg0)) (m ((c : Thread nD τ).loc main_arg1)))
            (takeK (m ((c : Thread nD τ).loc main_arg0)) (m ((c : Thread nD τ).loc main_arg2)))
            (rowsFrom 0 (by omega) (m ((c : Thread nD τ).loc main_arg4))) (rowsFrom 128 (by omega) (m ((c : Thread nD τ).loc main_arg4)))
            (asRow (m ((c : Thread nD τ).loc main_arg5))) (m ((c : Thread nD τ).loc main_arg6))
            (asRow (m ((c : Thread nD τ).loc main_arg7)))))
        (m ((c : Thread nD τ).loc main_arg3))
        (rowsFrom 0 (by omega) (m ((c : Thread nD τ).loc main_arg8))) (rowsFrom 128 (by omega) (m ((c : Thread nD τ).loc main_arg8)))
        (rowsFrom 256 (by omega) (m ((c : Thread nD τ).loc main_arg8)))
        (asRow (m ((c : Thread nD τ).loc main_arg9))) (m ((c : Thread nD τ).loc main_arg10))
        (asRow (m ((c : Thread nD τ).loc main_arg11))) := by
  refine ((W7_arr m ρ c 9).trans (FeatRegion.feat_region (V6 m ρ) c)).trans ?_
  rw [V6_arg0, V6_arg3,
    show V6 m ρ c main_v14 = _ from mid_v14 (W5 m ρ c), show V6 m ρ c main_v16 = _ from mid_v16 (W5 m ρ c),
    show V6 m ρ c main_v18 = _ from mid_v18 (W5 m ρ c), show V6 m ρ c main_v20 = _ from mid_v20 (W5 m ρ c),
    show V6 m ρ c main_v21 = _ from mid_v21 (W5 m ρ c), show V6 m ρ c main_v22 = _ from mid_v22 (W5 m ρ c),
    show V6 m ρ c main_v23 = _ from mid_v23 (W5 m ρ c),
    W5_arg1, W5_arg8, W5_arg9, W5_arg10, W5_arg11, W5_v11]

end Cert.KernelIdeal.KValue

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.Bridge.lean ====
/-
  The kernel program's value is the specified layer, when every cols entry is a valid numpy index into the node table.

  The kernel program fetches rows with a filler for out-of-range indices where the specification clamps.  For cols the
  hypothesis puts every wrapped index inside the table, so no filler is chosen.  For rows no hypothesis is needed: the
  message of an edge is only ever added to the node its rows entry names, read signed and unwrapped, so an edge whose
  rows entry is not a node of the table contributes to no sum, and for the others the wrapped index is the entry itself.
-/
import proofs.«423729_j29875792511391_1_alg».proof.Proof.KHost
import proofs.«423729_j29875792511391_1_alg».proof.Proof.LibScatterSum
import Idealize.ShloMosaic.Lib.Pipeline.Value
import Idealize.ShloMosaic.PureOps.Ideal.Laws

noncomputable section

open scoped BigOperators

namespace Cert.KernelIdeal.Bridge

open Cert.KernelIdeal Cert.KernelIdeal.Gen Cert.KernelIdeal.Take Cert.KernelIdeal.Host Cert.GnnSpec
open Idealize.ShloMosaic Idealize.ShloMosaic.ValueIdx

/-- The message of an edge depends only on that edge's source and destination rows. -/
theorem msgAt_congr (src src' dst dst' : SEF.Idx → EReal) (ws wd : SW.Idx → EReal) (b1 : SB2.Idx → EReal)
    (w2 : SW.Idx → EReal) (b2 : SB2.Idx → EReal) (e : Fin 640000) (j : Fin 128)
    (hs : ∀ q : Fin 128, src (ix2 e q) = src' (ix2 e q)) (hd : ∀ q : Fin 128, dst (ix2 e q) = dst' (ix2 e q)) :
    msgAt src dst ws wd b1 w2 b2 e j = msgAt src' dst' ws wd b1 w2 b2 e j := by
  unfold msgAt
  simp only [hs, hd]

/-- A non-negative index is not wrapped. -/
theorem wrapIdx_of_nonneg (i : BitVec 32) (h : 0 ≤ i.toInt) : wrapIdx i = i := by
  unfold wrapIdx
  rw [if_neg (by omega)]

/-- A valid numpy index into a table of 10000 rows wraps into 0..9999. -/
theorem wrapIdx_range (i : BitVec 32) (h0 : -10000 ≤ i.toInt) (h1 : i.toInt < 10000) :
    0 ≤ (wrapIdx i).toInt ∧ (wrapIdx i).toInt ≤ 9999 := by
  unfold wrapIdx
  by_cases h : i.toInt < 0
  · rw [if_pos h]
    have h2 : (i + 10000#32).toInt = i.toInt + 10000 := by
      rw [BitVec.toInt_add, show (10000#32 : BitVec 32).toInt = 10000 by decide]
      exact Int.bmod_eq_of_le_mul_two (by omega) (by omega)
    omega
  · rw [if_neg h]; omega

/-- The host's accumulation into a zero array is the specification's aggregate. -/
theorem scat_eq (rows : IVec S640000 32) (M : FVec Ideal S640000x128 .f32) : scat rows M = aggArr rows M := by
  funext i
  obtain ⟨n, k, rfl⟩ : ∃ (n : Fin 10000) (k : Fin 128), i = ix2 n k := ⟨i 0, i 1, eq_ix2 i⟩
  unfold scat
  show Ideal.hostScatterAdd scatter_S10000x128_S640000x1_S640000x128_1_0_0_1 _ _ M (ix2 n k) = _
  rw [Idealize.ShloMosaic.ScatterSum.scatterAdd_rows_apply scatter_S10000x128_S640000x1_S640000x128_1_0_0_1 rfl rfl rfl rfl]
  show Ideal.ofBits .f32 0x00000000#32 + _ = _
  rw [Ideal.ofBits_zero_f32, zero_add]
  have hidx : ∀ e : Fin 640000,
      broadcastInDim S640000x1 ![0] bcast_S640000_S640000x1_0 rows (ix2 e (0 : Fin 1)) = rows (ix1 e) := fun e =>
    broadcastInDim_apply _ bcast_S640000_S640000x1_0 rows (ix2 e (0 : Fin 1)) (ix1 e)
      (fun a => by match a with | ⟨0, _⟩ => rfl)
  simp only [hidx]
  rfl

/-- THE BRIDGE: with every cols entry a valid numpy index, the kernel program's value is the layer. -/
theorem kernel_layer (x0 : SNF.Idx → EReal) (x1 x2 : SE.Idx → BitVec 32) (x3 : SNF.Idx → EReal) (x4 : SW2.Idx → EReal)
    (x5 : SB.Idx → EReal) (x6 : SW.Idx → EReal) (x7 : SB.Idx → EReal) (x8 : SW3.Idx → EReal) (x9 : SB.Idx → EReal)
    (x10 : SW.Idx → EReal) (x11 : SB.Idx → EReal)
    (hcols : ∀ e : Fin 640000, -10000 ≤ (x2 (ix1 e)).toInt ∧ (x2 (ix1 e)).toInt < 10000) :
    outArr x0
      (scat x1 (msgArr (takeK x0 x1) (takeK x0 x2) (rowsFrom 0 (by omega) x4) (rowsFrom 128 (by omega) x4) (asRow x5) x6 (asRow x7)))
      x3 (rowsFrom 0 (by omega) x8) (rowsFrom 128 (by omega) x8) (rowsFrom 256 (by omega) x8) (asRow x9) x10 (asRow x11)
    = layer x0 x1 x2 x3 x4 x5 x6 x7 x8 x9 x10 x11 := by
  unfold layer
  rw [scat_eq]
  have key : aggArr x1 (msgArr (takeK x0 x1) (takeK x0 x2) (rowsFrom 0 (by omega) x4) (rowsFrom 128 (by omega) x4)
        (asRow x5) x6 (asRow x7))
      = aggArr x1 (msgArr (gath x0 x1) (gath x0 x2) (rowsFrom 0 (by omega) x4) (rowsFrom 128 (by omega) x4)
        (asRow x5) x6 (asRow x7)) := by
    funext i
    obtain ⟨n, k, rfl⟩ : ∃ (n : Fin 10000) (k : Fin 128), i = ix2 n k := ⟨i 0, i 1, eq_ix2 i⟩
    unfold aggArr
    refine Finset.sum_congr rfl fun e he => ?_
    have hrow : (x1 (ix1 e)).toInt = (n.val : Int) := (Finset.mem_filter.1 he).2
    have hn : n.val < 10000 := n.isLt
    have hw1 : wrapIdx (x1 (ix1 e)) = x1 (ix1 e) := wrapIdx_of_nonneg _ (by omega)
    obtain ⟨c0, c1⟩ := wrapIdx_range _ (hcols e).1 (hcols e).2
    rw [msgArr_apply, msgArr_apply]
    exact msgAt_congr _ _ _ _ _ _ _ _ _ e k
      (fun q => takeK_apply x0 x1 e q (by rw [hw1]; omega) (by rw [hw1]; omega))
      (fun q => takeK_apply x0 x2 e q c0 c1)
  rw [key]

end Cert.KernelIdeal.Bridge

end
-- ==== Proof.PreCols.lean ====
/-
  The precondition read back: every cols entry, read signed, lies in [-10000, 10000), the valid numpy indices into a
  table of 10000 rows.  The precondition is a conjunction ending in "all of (cols ≥ -10000 and cols < 10000)"; a
  conjunction of bits that is 1 has every bit 1, and an all-reduction by and that is 1 had 1 everywhere.
-/
import proofs.«423729_j29875792511391_1_alg».proof.Pre_finite_inputs
import proofs.«423729_j29875792511391_1_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Cols

open Cert.Pre_finite_inputs Cert.Pre_finite_inputs.Gen
open Idealize.ShloMosaic Idealize.ShloMosaic.ValueIdx

instance : Subsingleton S_.Idx := ⟨fun _ _ => funext fun d => d.elim0⟩

/-- Under the precondition every cols entry is a valid numpy index into the node table. -/
theorem cols_in_range (x0 : FVec Ideal S10000x128 .f32) (x1 x2 : IVec S640000 32) (x3 : FVec Ideal S10000x128 .f32)
    (x4 : FVec Ideal S256x128 .f32) (x5 : FVec Ideal S128 .f32) (x6 : FVec Ideal S128x128 .f32) (x7 : FVec Ideal S128 .f32)
    (x8 : FVec Ideal S384x128 .f32) (x9 : FVec Ideal S128 .f32) (x10 : FVec Ideal S128x128 .f32) (x11 : FVec Ideal S128 .f32)
    (h : fn (F := Ideal) x0 x1 x2 x3 x4 x5 x6 x7 x8 x9 x10 x11 = fun _ => 1#1) (e : Fin 640000) :
    -10000 ≤ (x2 (ix1 e)).toInt ∧ (x2 (ix1 e)).toInt < 10000 := by
  have h0 := congrFun h ix0
  dsimp only [fn, fn_part1, fn_part2, fn_part3] at h0
  have h1 := (IntOp.andi_eq_one.1 h0).2
  have h2 := Host.reduce_andi_all _ _ _ _ _ h1 (ix1 e)
  obtain ⟨ha, hb⟩ := IntOp.andi_eq_one.1 h2
  have ha' := IntOp.cmpi_sge.1 ha
  have hb' := IntOp.cmpi_slt.1 hb
  refine ⟨?_, ?_⟩
  · have hc : (4294957296#32 : BitVec 32).toInt = -10000 := by decide
    exact hc ▸ ha'
  · have hc : (10000#32 : BitVec 32).toInt = 10000 := by decide
    exact hc ▸ hb'

end Cert.Pre_finite_inputs.Cols

end
-- ==== Proof.RefValue.lean ====
/-
  The reference program computes the graph layer of the specification.

  The reference gathers the feature rows of an edge's two end nodes (the node index wrapped as numpy wraps a negative
  index, then clamped into the table), lays the two rows side by side as one row of 256 entries and multiplies it with
  the 256-row first weight matrix; a sum over 256 positions is the sum over the first 128 plus the sum over the last
  128, which are the products of the source row with the matrix's top half and of the destination row with its bottom
  half. The logistic function is written 1 / (1 + exp (-x)) and softsign x / (|x| + 1), |x| = max x (-x); the bit pattern
  of 1.0 denotes the extended real 1. The messages are summed per node by an accumulating scatter into a zero array,
  which at each node is the sum over the edges whose rows entry is that node. The node-side network lays the features,
  the aggregate and the time embedding side by side as one row of 384 entries, applies the logistic function to each
  entry and multiplies with the 384-row third weight matrix: a sum over 384 positions is the sum of three sums over 128.
-/
import proofs.«423729_j29875792511391_1_alg».proof.Proof.Gen.ReferenceIdeal.Read
import proofs.«423729_j29875792511391_1_alg».proof.Proof.Spec
import proofs.«423729_j29875792511391_1_alg».proof.Proof.LibScatterSum
import proofs.«423729_j29875792511391_1_alg».proof.Proof.LibGatherRows
import Idealize.ShloMosaic.Lib.Pipeline.Value
import Idealize.ShloMosaic.Lib.ValueIdx
import Idealize.ShloMosaic.PureOps.Ideal.Laws
import Idealize.ShloMosaic.PureOps.IdealRules
import Mathlib.Algebra.BigOperators.Fin

noncomputable section

open scoped BigOperators

namespace Cert.ReferenceIdeal.RefValue

open Cert.ReferenceIdeal Cert.ReferenceIdeal.Gen Cert.ReferenceIdeal.Read Cert.GnnSpec
open Idealize.ShloMosaic Idealize.ShloMosaic.ValueIdx Idealize.ShloMosaic.StableHlo

/-! ## The array types of the twelve inputs -/

abbrev NodeArr : Type := (⟨S10000x128, .f32⟩ : BufTy).Contents (Elt Ideal)
abbrev EdgeIdx : Type := (⟨S640000, .i32⟩ : BufTy).Contents (Elt Ideal)
abbrev W2Arr : Type := (⟨S256x128, .f32⟩ : BufTy).Contents (Elt Ideal)
abbrev W3Arr : Type := (⟨S384x128, .f32⟩ : BufTy).Contents (Elt Ideal)
abbrev WArr : Type := (⟨S128x128, .f32⟩ : BufTy).Contents (Elt Ideal)
abbrev BArr : Type := (⟨S128, .f32⟩ : BufTy).Contents (Elt Ideal)

/-! ## Indices, words and sums -/

/-- Two rank-2 indices with the same two coordinates are the same index. -/
theorem idx2_ext {n0 n1 : Nat} (f g : (⟨2, ![n0, n1]⟩ : Shape).Idx) (h0 : (f 0).val = (g 0).val)
    (h1 : (f 1).val = (g 1).val) : f = g := by
  funext d
  match d with
  | ⟨0, _⟩ => exact Fin.ext h0
  | ⟨1, _⟩ => exact Fin.ext h1

/-- The bit pattern of 1.0 denotes the extended real 1. -/
theorem one_f32 : Ideal.ofBits .f32 0x3F800000#32 = 1 := IdealRules.sign_bit.ideal_onePat .f32

/-- select(a < 0, a + 10000, a) on a 32-bit word, the comparison signed, is the wrapped index. -/
theorem wrap_word (a : BitVec 32) :
    Scalar.select (IntOp.cmpi .slt a 0#32) (IntOp.addi a 10000#32) a = wrapIdx a := by
  unfold Scalar.select IntOp.cmpi IntOp.addi wrapIdx
  dsimp only
  by_cases h : a.toInt < 0
  · have hs : a.slt 0#32 = true := by
      rw [BitVec.slt]; simpa using h
    rw [if_pos h, hs]; rfl
  · have hs : a.slt 0#32 = false := by
      rw [BitVec.slt]; simpa using h
    rw [if_neg h, hs]; rfl

/-- A sum over 256 positions is the sum over the first 128 plus the sum over the last 128. -/
theorem sum256 (f : Fin 256 → EReal) :
    ∑ k : Fin 256, f k = (∑ q : Fin 128, f ⟨q.val, by omega⟩) + ∑ q : Fin 128, f ⟨128 + q.val, by omega⟩ :=
  Fin.sum_univ_add (a := 128) (b := 128) f

/-- A sum over 384 positions is the sum of the sums over its three runs of 128. -/
theorem sum384 (f : Fin 384 → EReal) :
    ∑ k : Fin 384, f k = ((∑ q : Fin 128, f ⟨q.val, by omega⟩) + ∑ q : Fin 128, f ⟨128 + q.val, by omega⟩)
      + ∑ q : Fin 128, f ⟨256 + q.val, by omega⟩ := by
  have h1 := Fin.sum_univ_add (a := 256) (b := 128) f
  have h2 := sum256 (fun k => f ⟨k.val, by omega⟩)
  exact h1.trans (congrArg (· + _) h2)

/-! ## Rows laid side by side, read at an index -/

/-- Two edge-major arrays side by side: a position in the first 128 reads the first array. -/
theorem cat2_left (h : Shape.Concatenates [S640000x128, S640000x128] S640000x256 1)
    (a b : S640000x128.Idx → EReal) (e : Fin 640000) (q : Fin 128) :
    concatenate S640000x256 1 [⟨S640000x128, a⟩, ⟨S640000x128, b⟩] h (ix2 e (⟨q.val, by omega⟩ : Fin 256)) = a (ix2 e q) := by
  refine concatenate_pair_apply_left 1 a b h _ rfl (ix2 e q) ?_
  intro d
  match d with
  | ⟨0, _⟩ => rfl
  | ⟨1, _⟩ => rfl

/-- Two edge-major arrays side by side: a position in the last 128 reads the second array, 128 to the left. -/
theorem cat2_right (h : Shape.Concatenates [S640000x128, S640000x128] S640000x256 1)
    (a b : S640000x128.Idx → EReal) (e : Fin 640000) (q : Fin 128) :
    concatenate S640000x256 1 [⟨S640000x128, a⟩, ⟨S640000x128, b⟩] h (ix2 e (⟨128 + q.val, by omega⟩ : Fin 256)) = b (ix2 e q) := by
  refine concatenate_pair_apply_right 1 a b h _ rfl rfl (ix2 e q) ?_ ?_
  · intro d hd
    match d with
    | ⟨0, _⟩ => rfl
    | ⟨1, _⟩ => exact absurd rfl hd
  · show q.val + 128 = 128 + q.val
    omega

/-- Three node-major arrays side by side: a position in the run starting at 0, 128 or 256 reads the first, second or
    third array, that many positions to the left. -/
theorem cat3 (h : Shape.Concatenates [S10000x128, S10000x128, S10000x128] S10000x384 1)
    (a b c : S10000x128.Idx → EReal) (n : Fin 10000) (q : Fin 128) :
    concatenate S10000x384 1 [⟨S10000x128, a⟩, ⟨S10000x128, b⟩, ⟨S10000x128, c⟩] h (ix2 n (⟨q.val, by omega⟩ : Fin 384))
        = a (ix2 n q)
    ∧ concatenate S10000x384 1 [⟨S10000x128, a⟩, ⟨S10000x128, b⟩, ⟨S10000x128, c⟩] h (ix2 n (⟨128 + q.val, by omega⟩ : Fin 384))
        = b (ix2 n q)
    ∧ concatenate S10000x384 1 [⟨S10000x128, a⟩, ⟨S10000x128, b⟩, ⟨S10000x128, c⟩] h (ix2 n (⟨256 + q.val, by omega⟩ : Fin 384))
        = c (ix2 n q) := by
  have hoff : ∀ d : Fin 2, (d.cast (rfl : S10000x128.rank = S10000x384.rank)) ≠ (1 : Fin 2) →
      ∀ k : Fin 384, ((ix2 n q : S10000x128.Idx) d).val = ((ix2 n k : S10000x384.Idx) (d.cast rfl)).val := by
    intro d hd k
    match d with
    | ⟨0, _⟩ => rfl
    | ⟨1, _⟩ => exact absurd rfl hd
  refine ⟨?_, ?_, ?_⟩
  · exact concatenate_apply_piece 1 [⟨S10000x128, a⟩, ⟨S10000x128, b⟩, ⟨S10000x128, c⟩] h
      (ix2 n (⟨q.val, by omega⟩ : Fin 384)) 0 (by simp) S10000x128 a rfl rfl 0 rfl
      (ix2 n q) (fun d hd => hoff d hd _) (by show 0 + q.val = q.val; omega)
  · exact concatenate_apply_piece 1 [⟨S10000x128, a⟩, ⟨S10000x128, b⟩, ⟨S10000x128, c⟩] h
      (ix2 n (⟨128 + q.val, by omega⟩ : Fin 384)) 1 (by simp) S10000x128 b rfl rfl 128 rfl
      (ix2 n q) (fun d hd => hoff d hd _) (by show 128 + q.val = 128 + q.val; rfl)
  · exact concatenate_apply_piece 1 [⟨S10000x128, a⟩, ⟨S10000x128, b⟩, ⟨S10000x128, c⟩] h
      (ix2 n (⟨256 + q.val, by omega⟩ : Fin 384)) 2 (by simp) S10000x128 c rfl rfl 256 rfl
      (ix2 n q) (fun d hd => hoff d hd _) (by show 256 + q.val = 256 + q.val; rfl)

/-! ## The two gathers -/

/-- The index column the first gather reads is the wrapped rows entry. -/
theorem wrapped1 (x1 : EdgeIdx) (e : Fin 640000) :
    val_main_v5 (F := Ideal) x1 (ix2 e (0 : Fin 1)) = wrapIdx (x1 (ix1 e)) := by
  have hi : idx_main_v5 (ix2 e (0 : Fin 1)) = ix1 e := by
    funext d
    match d with
    | ⟨0, _⟩ => rfl
  rw [val_main_v5_apply, hi, val_main_v4_apply, val_main_v1_apply, val_main_v3_apply, val_main_v0_apply,
    val_main_v2_apply, val_main_c_apply, val_main_c_0_apply]
  exact wrap_word _

/-- The index column the second gather reads is the wrapped cols entry. -/
theorem wrapped2 (x2 : EdgeIdx) (e : Fin 640000) :
    val_main_v12 (F := Ideal) x2 (ix2 e (0 : Fin 1)) = wrapIdx (x2 (ix1 e)) := by
  have hi : idx_main_v12 (ix2 e (0 : Fin 1)) = ix1 e := by
    funext d
    match d with
    | ⟨0, _⟩ => rfl
  rw [val_main_v12_apply, hi, val_main_v11_apply, val_main_v8_apply, val_main_v10_apply, val_main_v7_apply,
    val_main_v9_apply, val_main_c_1_apply, val_main_c_2_apply]
  exact wrap_word _

/-- The first gather: the source node's feature row. -/
theorem gath1 (x0 : NodeArr) (x1 : EdgeIdx) (e : Fin 640000) (q : Fin 128) :
    val_main_v6 (F := Ideal) x0 x1 (ix2 e q) = gath x0 x1 (ix2 e q) := by
  unfold val_main_v6
  refine (GatherRows.gather_rows_apply (P := 10000) (C := 128) (N := 640000) (w := 32) (by decide)
    gather_S10000x128_S640000x1_S640000x128_1_0_n_n_0_1_1128 rfl rfl rfl rfl rfl rfl rfl x0
    (val_main_v5 (F := Ideal) x1) e q).trans ?_
  refine congrArg x0 (idx2_ext _ _ ?_ rfl)
  show min (val_main_v5 (F := Ideal) x1 (ix2 e (0 : Fin 1))).toInt.toNat (10000 - 1)
    = min (wrapIdx (x1 (ix1 e))).toInt.toNat 9999
  exact congrArg (fun v : BitVec 32 => min v.toInt.toNat 9999) (wrapped1 x1 e)

/-- The second gather: the destination node's feature row. -/
theorem gath2 (x0 : NodeArr) (x2 : EdgeIdx) (e : Fin 640000) (q : Fin 128) :
    val_main_v13 (F := Ideal) x0 x2 (ix2 e q) = gath x0 x2 (ix2 e q) := by
  unfold val_main_v13
  refine (GatherRows.gather_rows_apply (P := 10000) (C := 128) (N := 640000) (w := 32) (by decide)
    gather_S10000x128_S640000x1_S640000x128_1_0_n_n_0_1_1128 rfl rfl rfl rfl rfl rfl rfl x0
    (val_main_v12 (F := Ideal) x2) e q).trans ?_
  refine congrArg x0 (idx2_ext _ _ ?_ rfl)
  show min (val_main_v12 (F := Ideal) x2 (ix2 e (0 : Fin 1))).toInt.toNat (10000 - 1)
    = min (wrapIdx (x2 (ix1 e))).toInt.toNat 9999
  exact congrArg (fun v : BitVec 32 => min v.toInt.toNat 9999) (wrapped2 x2 e)

/-- The message network's input row: its first 128 entries are the source row. -/
theorem v14_left (x0 : NodeArr) (x1 x2 : EdgeIdx) (e : Fin 640000) (q : Fin 128) :
    val_main_v14 (F := Ideal) x0 x1 x2 (ix2 e (⟨q.val, by omega⟩ : Fin 256)) = gath x0 x1 (ix2 e q) := by
  unfold val_main_v14
  exact (cat2_left _ _ _ e q).trans (gath1 x0 x1 e q)

/-- The message network's input row: its last 128 entries are the destination row. -/
theorem v14_right (x0 : NodeArr) (x1 x2 : EdgeIdx) (e : Fin 640000) (q : Fin 128) :
    val_main_v14 (F := Ideal) x0 x1 x2 (ix2 e (⟨128 + q.val, by omega⟩ : Fin 256)) = gath x0 x2 (ix2 e q) := by
  unfold val_main_v14
  exact (cat2_right _ _ _ e q).trans (gath2 x0 x2 e q)

/-! ## The message network -/

/-- The first product: the source row with the top half of the matrix plus the destination row with its bottom half. -/
theorem v15_eq (x0 : NodeArr) (x1 x2 : EdgeIdx) (x4 : W2Arr) (e : Fin 640000) (k : Fin 128) :
    val_main_v15 (F := Ideal) x0 x1 x2 x4 (ix2 e k)
      = (∑ q : Fin 128, gath x0 x1 (ix2 e q) * rowsFrom (R := 256) 0 (by omega) x4 (ix2 q k))
        + ∑ q : Fin 128, gath x0 x2 (ix2 e q) * rowsFrom (R := 256) 128 (by omega) x4 (ix2 q k) := by
  rw [val_main_v15_apply, sum256]
  refine congrArg₂ (· + ·) (Finset.sum_congr rfl fun q _ => ?_) (Finset.sum_congr rfl fun q _ => ?_)
  · have hl : lidx_main_v15 (ix2 e k) (⟨q.val, by omega⟩ : Fin 256) = ix2 e (⟨q.val, by omega⟩ : Fin 256) :=
      idx2_ext _ _ rfl rfl
    have hr : ridx_main_v15 (ix2 e k) (⟨q.val, by omega⟩ : Fin 256) = ix2 (⟨0 + q.val, by omega⟩ : Fin 256) k :=
      idx2_ext _ _ (by show q.val = 0 + q.val; omega) rfl
    rw [hl, hr, v14_left]
    rfl
  · have hl : lidx_main_v15 (ix2 e k) (⟨128 + q.val, by omega⟩ : Fin 256) = ix2 e (⟨128 + q.val, by omega⟩ : Fin 256) :=
      idx2_ext _ _ rfl rfl
    have hr : ridx_main_v15 (ix2 e k) (⟨128 + q.val, by omega⟩ : Fin 256) = ix2 (⟨128 + q.val, by omega⟩ : Fin 256) k :=
      idx2_ext _ _ rfl rfl
    rw [hl, hr, v14_right]
    rfl

/-- The first layer before its activation: the product plus the bias. -/
theorem v18_eq (x0 : NodeArr) (x1 x2 : EdgeIdx) (x4 : W2Arr) (x5 : BArr) (e : Fin 640000) (k : Fin 128) :
    val_main_v18 (F := Ideal) x0 x1 x2 x4 x5 (ix2 e k)
      = ((∑ q : Fin 128, gath x0 x1 (ix2 e q) * rowsFrom (R := 256) 0 (by omega) x4 (ix2 q k))
          + ∑ q : Fin 128, gath x0 x2 (ix2 e q) * rowsFrom (R := 256) 128 (by omega) x4 (ix2 q k))
        + asRow x5 (ix2 (0 : Fin 1) k) := by
  have hb : idx_main_v16 (idx_main_v17 (ix2 e k)) = ix1 k := by
    funext d
    match d with
    | ⟨0, _⟩ => rfl
  rw [val_main_v18_apply, v15_eq, val_main_v17_apply, val_main_v16_apply, hb]
  rfl

/-- The logistic function as the host prints it. -/
theorem v24_eq (x0 : NodeArr) (x1 x2 : EdgeIdx) (x4 : W2Arr) (x5 : BArr) (i : S640000x128.Idx) :
    val_main_v24 (F := Ideal) x0 x1 x2 x4 x5 i = sg (val_main_v18 (F := Ideal) x0 x1 x2 x4 x5 i) := by
  rw [val_main_v24_apply, val_main_v23_apply, val_main_cst_3_apply, val_main_v22_apply, val_main_v21_apply,
    val_main_cst_apply, val_main_v20_apply, val_main_v19_apply]
  generalize val_main_v18 (F := Ideal) x0 x1 x2 x4 x5 i = y
  show Ideal.div (Ideal.ofBits .f32 0x3F800000#32) (Ideal.ofBits .f32 0x3F800000#32 + Ideal.exp (-y)) = sg y
  rw [one_f32]
  rfl

/-- The second layer before its activation. -/
theorem v28_eq (x0 : NodeArr) (x1 x2 : EdgeIdx) (x4 : W2Arr) (x5 : BArr) (x6 : WArr) (x7 : BArr)
    (e : Fin 640000) (j : Fin 128) :
    val_main_v28 (F := Ideal) x0 x1 x2 x4 x5 x6 x7 (ix2 e j)
      = (∑ k : Fin 128, val_main_v24 (F := Ideal) x0 x1 x2 x4 x5 (ix2 e k) * x6 (ix2 k j))
        + asRow x7 (ix2 (0 : Fin 1) j) := by
  have hb : idx_main_v26 (idx_main_v27 (ix2 e j)) = ix1 j := by
    funext d
    match d with
    | ⟨0, _⟩ => rfl
  have hl : ∀ k : Fin 128, lidx_main_v25 (ix2 e j) k = ix2 e k := fun k => idx2_ext _ _ rfl rfl
  have hr : ∀ k : Fin 128, ridx_main_v25 (ix2 e j) k = ix2 k j := fun k => idx2_ext _ _ rfl rfl
  rw [val_main_v28_apply, val_main_v25_apply, val_main_v27_apply, val_main_v26_apply, hb]
  simp only [hl, hr]
  rfl

/-- Softsign as the host prints it. -/
theorem v29_eq (x0 : NodeArr) (x1 x2 : EdgeIdx) (x4 : W2Arr) (x5 : BArr) (x6 : WArr) (x7 : BArr)
    (i : S640000x128.Idx) :
    val_main_v29 (F := Ideal) x0 x1 x2 x4 x5 x6 x7 i = ss (val_main_v28 (F := Ideal) x0 x1 x2 x4 x5 x6 x7 i) := by
  rw [val_main_v29_apply, val_main_call0_v2_apply, val_main_call0_v0_apply, val_main_call0_v1_apply,
    val_main_call0_cst_apply]
  generalize val_main_v28 (F := Ideal) x0 x1 x2 x4 x5 x6 x7 i = y
  show Ideal.div y (max y (-y) + Ideal.ofBits .f32 0x3F800000#32) = ss y
  rw [one_f32]
  rfl

/-- The messages of the reference are the messages of the specification. -/
theorem msg_eq (x0 : NodeArr) (x1 x2 : EdgeIdx) (x4 : W2Arr) (x5 : BArr) (x6 : WArr) (x7 : BArr) :
    val_main_v29 (F := Ideal) x0 x1 x2 x4 x5 x6 x7
      = msgArr (gath x0 x1) (gath x0 x2) (rowsFrom (R := 256) 0 (by omega) x4) (rowsFrom (R := 256) 128 (by omega) x4)
          (asRow x5) x6 (asRow x7) := by
  funext i
  obtain ⟨e, j, rfl⟩ : ∃ e j, i = ix2 e j := ⟨i 0, i 1, eq_ix2 i⟩
  rw [msgArr_apply, v29_eq, v28_eq]
  unfold msgAt
  refine congrArg ss (congrArg (· + _) (Finset.sum_congr rfl fun k _ => ?_))
  rw [v24_eq, v18_eq]

/-! ## The aggregate -/

/-- The accumulating scatter into the zero array is, at each node, the sum of the updates of the edges whose rows
    entry is that node. -/
theorem agg_eq (x0 : NodeArr) (x1 x2 : EdgeIdx) (x4 : W2Arr) (x5 : BArr) (x6 : WArr) (x7 : BArr) :
    val_main_v32 (F := Ideal) x0 x1 x2 x4 x5 x6 x7
      = aggArr x1 (val_main_v29 (F := Ideal) x0 x1 x2 x4 x5 x6 x7) := by
  funext i
  obtain ⟨n, c, rfl⟩ : ∃ n c, i = ix2 n c := ⟨i 0, i 1, eq_ix2 i⟩
  have h31 : ∀ e : Fin 640000, val_main_v31 (F := Ideal) x1 (ix2 e (0 : Fin 1)) = x1 (ix1 e) := fun e => by
    rw [val_main_v31_apply]
    exact congrArg x1 (funext fun d => match d with | ⟨0, _⟩ => rfl)
  unfold val_main_v32
  show Ideal.hostScatterAdd scatter_S10000x128_S640000x1_S640000x128_1_0_0_1 (val_main_v30 (F := Ideal))
    (val_main_v31 (F := Ideal) x1) (val_main_v29 (F := Ideal) x0 x1 x2 x4 x5 x6 x7) (ix2 n c) = _
  rw [ScatterSum.scatterAdd_rows_apply _ rfl rfl rfl rfl, val_main_v30_apply, val_main_cst_4_apply]
  show Ideal.ofBits .f32 0x00000000#32 + _ = _
  rw [Ideal.ofBits_zero_f32, zero_add]
  unfold aggArr
  simp only [h31]

/-! ## The node network -/

/-- The node network's input row: the features, the aggregate, the time embedding. -/
theorem v33_eq (x0 : NodeArr) (x1 x2 : EdgeIdx) (x3 : NodeArr) (x4 : W2Arr) (x5 : BArr) (x6 : WArr) (x7 : BArr)
    (n : Fin 10000) (q : Fin 128) :
    val_main_v33 (F := Ideal) x0 x1 x2 x3 x4 x5 x6 x7 (ix2 n (⟨q.val, by omega⟩ : Fin 384)) = x0 (ix2 n q)
    ∧ val_main_v33 (F := Ideal) x0 x1 x2 x3 x4 x5 x6 x7 (ix2 n (⟨128 + q.val, by omega⟩ : Fin 384))
        = val_main_v32 (F := Ideal) x0 x1 x2 x4 x5 x6 x7 (ix2 n q)
    ∧ val_main_v33 (F := Ideal) x0 x1 x2 x3 x4 x5 x6 x7 (ix2 n (⟨256 + q.val, by omega⟩ : Fin 384)) = x3 (ix2 n q) := by
  unfold val_main_v33
  exact cat3 _ _ _ _ n q

/-- The logistic function on the input row, as the host prints it. -/
theorem v39_eq (x0 : NodeArr) (x1 x2 : EdgeIdx) (x3 : NodeArr) (x4 : W2Arr) (x5 : BArr) (x6 : WArr) (x7 : BArr)
    (i : S10000x384.Idx) :
    val_main_v39 (F := Ideal) x0 x1 x2 x3 x4 x5 x6 x7 i = sg (val_main_v33 (F := Ideal) x0 x1 x2 x3 x4 x5 x6 x7 i) := by
  rw [val_main_v39_apply, val_main_v38_apply, val_main_cst_6_apply, val_main_v37_apply, val_main_v36_apply,
    val_main_cst_5_apply, val_main_v35_apply, val_main_v34_apply]
  generalize val_main_v33 (F := Ideal) x0 x1 x2 x3 x4 x5 x6 x7 i = y
  show Ideal.div (Ideal.ofBits .f32 0x3F800000#32) (Ideal.ofBits .f32 0x3F800000#32 + Ideal.exp (-y)) = sg y
  rw [one_f32]
  rfl

/-- The third product: three products with the three thirds of the matrix. -/
theorem v40_eq (x0 : NodeArr) (x1 x2 : EdgeIdx) (x3 : NodeArr) (x4 : W2Arr) (x5 : BArr) (x6 : WArr) (x7 : BArr)
    (x8 : W3Arr) (n : Fin 10000) (k : Fin 128) :
    val_main_v40 (F := Ideal) x0 x1 x2 x3 x4 x5 x6 x7 x8 (ix2 n k)
      = ((∑ q : Fin 128, sg (x0 (ix2 n q)) * rowsFrom (R := 384) 0 (by omega) x8 (ix2 q k))
          + ∑ q : Fin 128, sg (val_main_v32 (F := Ideal) x0 x1 x2 x4 x5 x6 x7 (ix2 n q))
              * rowsFrom (R := 384) 128 (by omega) x8 (ix2 q k))
        + ∑ q : Fin 128, sg (x3 (ix2 n q)) * rowsFrom (R := 384) 256 (by omega) x8 (ix2 q k) := by
  rw [val_main_v40_apply, sum384]
  refine congrArg₂ (· + ·) (congrArg₂ (· + ·) (Finset.sum_congr rfl fun q _ => ?_) (Finset.sum_congr rfl fun q _ => ?_))
    (Finset.sum_congr rfl fun q _ => ?_)
  · have hl : lidx_main_v40 (ix2 n k) (⟨q.val, by omega⟩ : Fin 384) = ix2 n (⟨q.val, by omega⟩ : Fin 384) :=
      idx2_ext _ _ rfl rfl
    have hr : ridx_main_v40 (ix2 n k) (⟨q.val, by omega⟩ : Fin 384) = ix2 (⟨0 + q.val, by omega⟩ : Fin 384) k :=
      idx2_ext _ _ (by show q.val = 0 + q.val; omega) rfl
    rw [hl, hr, v39_eq, (v33_eq x0 x1 x2 x3 x4 x5 x6 x7 n q).1]
    rfl
  · have hl : lidx_main_v40 (ix2 n k) (⟨128 + q.val, by omega⟩ : Fin 384) = ix2 n (⟨128 + q.val, by omega⟩ : Fin 384) :=
      idx2_ext _ _ rfl rfl
    have hr : ridx_main_v40 (ix2 n k) (⟨128 + q.val, by omega⟩ : Fin 384) = ix2 (⟨128 + q.val, by omega⟩ : Fin 384) k :=
      idx2_ext _ _ rfl rfl
    rw [hl, hr, v39_eq, (v33_eq x0 x1 x2 x3 x4 x5 x6 x7 n q).2.1]
    rfl
  · have hl : lidx_main_v40 (ix2 n k) (⟨256 + q.val, by omega⟩ : Fin 384) = ix2 n (⟨256 + q.val, by omega⟩ : Fin 384) :=
      idx2_ext _ _ rfl rfl
    have hr : ridx_main_v40 (ix2 n k) (⟨256 + q.val, by omega⟩ : Fin 384) = ix2 (⟨256 + q.val, by omega⟩ : Fin 384) k :=
      idx2_ext _ _ rfl rfl
    rw [hl, hr, v39_eq, (v33_eq x0 x1 x2 x3 x4 x5 x6 x7 n q).2.2]
    rfl

/-- The third layer before its activation: the product plus the bias. -/
theorem v43_eq (x0 : NodeArr) (x1 x2 : EdgeIdx) (x3 : NodeArr) (x4 : W2Arr) (x5 : BArr) (x6 : WArr) (x7 : BArr)
    (x8 : W3Arr) (x9 : BArr) (n : Fin 10000) (k : Fin 128) :
    val_main_v43 (F := Ideal) x0 x1 x2 x3 x4 x5 x6 x7 x8 x9 (ix2 n k)
      = val_main_v40 (F := Ideal) x0 x1 x2 x3 x4 x5 x6 x7 x8 (ix2 n k) + asRow x9 (ix2 (0 : Fin 1) k) := by
  have hb : idx_main_v41 (idx_main_v42 (ix2 n k)) = ix1 k := by
    funext d
    match d with
    | ⟨0, _⟩ => rfl
  rw [val_main_v43_apply, val_main_v42_apply, val_main_v41_apply, hb]
  rfl

/-- The logistic function on the third layer, as the host prints it. -/
theorem v49_eq (x0 : NodeArr) (x1 x2 : EdgeIdx) (x3 : NodeArr) (x4 : W2Arr) (x5 : BArr) (x6 : WArr) (x7 : BArr)
    (x8 : W3Arr) (x9 : BArr) (i : S10000x128.Idx) :
    val_main_v49 (F := Ideal) x0 x1 x2 x3 x4 x5 x6 x7 x8 x9 i
      = sg (val_main_v43 (F := Ideal) x0 x1 x2 x3 x4 x5 x6 x7 x8 x9 i) := by
  rw [val_main_v49_apply, val_main_v48_apply, val_main_cst_8_apply, val_main_v47_apply, val_main_v46_apply,
    val_main_cst_7_apply, val_main_v45_apply, val_main_v44_apply]
  generalize val_main_v43 (F := Ideal) x0 x1 x2 x3 x4 x5 x6 x7 x8 x9 i = y
  show Ideal.div (Ideal.ofBits .f32 0x3F800000#32) (Ideal.ofBits .f32 0x3F800000#32 + Ideal.exp (-y)) = sg y
  rw [one_f32]
  rfl

/-- The fourth layer before its activation. -/
theorem v53_eq (x0 : NodeArr) (x1 x2 : EdgeIdx) (x3 : NodeArr) (x4 : W2Arr) (x5 : BArr) (x6 : WArr) (x7 : BArr)
    (x8 : W3Arr) (x9 : BArr) (x10 : WArr) (x11 : BArr) (n : Fin 10000) (o : Fin 128) :
    val_main_v53 (F := Ideal) x0 x1 x2 x3 x4 x5 x6 x7 x8 x9 x10 x11 (ix2 n o)
      = (∑ k : Fin 128, val_main_v49 (F := Ideal) x0 x1 x2 x3 x4 x5 x6 x7 x8 x9 (ix2 n k) * x10 (ix2 k o))
        + asRow x11 (ix2 (0 : Fin 1) o) := by
  have hb : idx_main_v51 (idx_main_v52 (ix2 n o)) = ix1 o := by
    funext d
    match d with
    | ⟨0, _⟩ => rfl
  have hl : ∀ k : Fin 128, lidx_main_v50 (ix2 n o) k = ix2 n k := fun k => idx2_ext _ _ rfl rfl
  have hr : ∀ k : Fin 128, ridx_main_v50 (ix2 n o) k = ix2 k o := fun k => idx2_ext _ _ rfl rfl
  rw [val_main_v53_apply, val_main_v50_apply, val_main_v52_apply, val_main_v51_apply, hb]
  simp only [hl, hr]
  rfl

/-- Softsign on the fourth layer, as the host prints it. -/
theorem v54_eq (x0 : NodeArr) (x1 x2 : EdgeIdx) (x3 : NodeArr) (x4 : W2Arr) (x5 : BArr) (x6 : WArr) (x7 : BArr)
    (x8 : W3Arr) (x9 : BArr) (x10 : WArr) (x11 : BArr) (i : S10000x128.Idx) :
    val_main_v54 (F := Ideal) x0 x1 x2 x3 x4 x5 x6 x7 x8 x9 x10 x11 i
      = ss (val_main_v53 (F := Ideal) x0 x1 x2 x3 x4 x5 x6 x7 x8 x9 x10 x11 i) := by
  rw [val_main_v54_apply, val_main_call1_v2_apply, val_main_call1_v0_apply, val_main_call1_v1_apply,
    val_main_call1_cst_apply]
  generalize val_main_v53 (F := Ideal) x0 x1 x2 x3 x4 x5 x6 x7 x8 x9 x10 x11 i = y
  show Ideal.div y (max y (-y) + Ideal.ofBits .f32 0x3F800000#32) = ss y
  rw [one_f32]
  rfl

/-! ## The layer -/

/-- THE REFERENCE'S RESULT IS THE LAYER of the specification, as one function of the twelve inputs. -/
theorem ref_layer (x0 : (⟨S10000x128, .f32⟩ : BufTy).Contents (Elt Ideal))
    (x1 x2 : (⟨S640000, .i32⟩ : BufTy).Contents (Elt Ideal))
    (x3 : (⟨S10000x128, .f32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S384x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) :
    Read.val_main_v54 (F := Ideal) x0 x1 x2 x3 x4 x5 x6 x7 x8 x9 x10 x11
      = Cert.GnnSpec.layer x0 x1 x2 x3 x4 x5 x6 x7 x8 x9 x10 x11 := by
  funext i
  obtain ⟨n, o, rfl⟩ : ∃ n o, i = ix2 n o := ⟨i 0, i 1, eq_ix2 i⟩
  unfold layer
  rw [outArr_apply, v54_eq, v53_eq]
  unfold outAt
  refine congrArg ss (congrArg (· + _) (Finset.sum_congr rfl fun k _ => ?_))
  rw [v49_eq, v43_eq, v40_eq, agg_eq, msg_eq]

end Cert.ReferenceIdeal.RefValue

end
-- ==== Proof.lean ====
/-
  The certificate of a graph-network layer: per edge a two-layer message network on the features of the edge's two end
  nodes, the messages summed per source node, and a two-layer feature network on each node's features, aggregate and
  time embedding.  The kernel program runs the two networks as grid kernels over blocks of rows (80 blocks of 8000
  edges, 5 blocks of 2000 nodes) with the lookups and the aggregation on the host; the reference is the same layer in
  plain array operations, the two inputs of each first layer concatenated.

  Over the extended reals the two compute one function of the inputs (Proof/Spec.lean, `layer`): a matrix product
  with a concatenation is the sum of the products with the parts, sums being associative and commutative there; the
  kernel's change of float format is the identity; logistic and softsign are one expression on both sides.  The
  programs differ where an index is out of range: the kernel program's lookup fills, the reference's clamps.  For the
  rows input the difference never reaches the result (an edge whose rows entry is no node is summed into no node, and
  a rows entry that is a node is in range); for the cols input the precondition asks what the reference's own indexing
  asks, a valid index in [-10000, 10000).

  The frames of the two kernel programs are the generated ones; the reference's frame is its generated run with the
  result dropped; nothing was rewritten by the idealization, so the preservation claim is trivial.
-/
import proofs.«423729_j29875792511391_1_alg».proof.Defs
import proofs.«423729_j29875792511391_1_alg».proof.Proof.Gen.Kernel
import proofs.«423729_j29875792511391_1_alg».proof.Proof.Gen.Kernel.Skeleton
import proofs.«423729_j29875792511391_1_alg».proof.Proof.Gen.Kernel.Launch
import proofs.«423729_j29875792511391_1_alg».proof.Proof.Gen.Kernel.Points
import proofs.«423729_j29875792511391_1_alg».proof.Proof.Gen.Kernel.Frame
import proofs.«423729_j29875792511391_1_alg».proof.Proof.Gen.KernelIdeal
import proofs.«423729_j29875792511391_1_alg».proof.Proof.Gen.KernelIdeal.Skeleton
import proofs.«423729_j29875792511391_1_alg».proof.Proof.Gen.KernelIdeal.Launch
import proofs.«423729_j29875792511391_1_alg».proof.Proof.Gen.KernelIdeal.Points
import proofs.«423729_j29875792511391_1_alg».proof.Proof.Gen.KernelIdeal.Frame
import proofs.«423729_j29875792511391_1_alg».proof.Proof.Gen.ReferenceIdeal
import proofs.«423729_j29875792511391_1_alg».proof.Proof.Gen.ReferenceIdeal.Run
import proofs.«423729_j29875792511391_1_alg».proof.Proof.Gen.ReferenceIdeal.Read
import proofs.«423729_j29875792511391_1_alg».proof.Proof.Gen.Pre_finite_inputs
import proofs.«423729_j29875792511391_1_alg».proof.Proof.KernelRun
import proofs.«423729_j29875792511391_1_alg».proof.Proof.KValue
import proofs.«423729_j29875792511391_1_alg».proof.Proof.Bridge
import proofs.«423729_j29875792511391_1_alg».proof.Proof.PreCols
import proofs.«423729_j29875792511391_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the layer of the inputs in their result array. -/
theorem algebraic : Cert.algebraic_KernelIdeal_ReferenceIdeal := by
  intro m ρ m' ρ' hpre hagree
  refine ⟨fun c => Cert.GnnSpec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.Run.run_result (F := Ideal) m ρ)
    refine (Cert.KernelIdeal.KValue.result_eq m ρ c).trans ?_
    exact Cert.KernelIdeal.Bridge.kernel_layer _ _ _ _ _ _ _ _ _ _ _ _
      (Cert.Pre_finite_inputs.Cols.cols_in_range _ _ _ _ _ _ _ _ _ _ _ _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, Cert.ReferenceIdeal.RefValue.ref_layer]
    obtain ⟨a0, a1, a2, a3, a4, a5, a6, a7, a8, a9, a10, a11⟩ := hagree c
    rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
